-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S500000x128 : Shape := ⟨2, ![500000, 128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000x128 : S_.BroadcastsInDim S500000x128 (![] : Fin 0 → Fin S500000x128.rank)
  reducesTo_S500000x128_S_d0_1 : S500000x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S500000x128 .f32) (main_arg13 : FVec F S500000x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S500000x128 .f32 := Host.absf main_arg12
  let main_cst_22 : FVec F S_ .f32 := constant S_ .f32 0x7F800000#32
  let main_v60 : FVec F S500000x128 .f32 := broadcastInDim S500000x128 ![] bcast_S_S500000x128 main_cst_22
  let main_v61 : IVec S500000x128 1 := cmpf .olt main_v59 main_v60
  let main_c_23 : IVec S_ 1 := constantI S_ 1 1#1
  let main_v62 : IVec S_ 1 := (fun x v => Host.reduce IntOp.andi x v reducesTo_S500000x128_S_d0_1 h_S_) main_v61 main_c_23
  let main_v63 : IVec S_ 1 := andi main_v58 main_v62
  let main_v64 : FVec F S500000x128 .f32 := Host.absf main_arg13
  let main_cst_24 : FVec F S_ .f32 := constant S_ .f32 0x7F800000#32
  let main_v65 : FVec F S500000x128 .f32 := broadcastInDim S500000x128 ![] bcast_S_S500000x128 main_cst_24
  let main_v66 : IVec S500000x128 1 := cmpf .olt main_v64 main_v65
  let main_c_25 : IVec S_ 1 := constantI S_ 1 1#1
  let main_v67 : IVec S_ 1 := (fun x v => Host.reduce IntOp.andi x v reducesTo_S500000x128_S_d0_1 h_S_) main_v66 main_c_25
  fn_part4 (F := F) main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128 .f32) (main_arg12 : FVec F S500000x128 .f32) (main_arg13 : FVec F S500000x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128x128 .f32) (main_arg11 : FVec F S128 .f32) (main_arg12 : FVec F S500000x128 .f32) (main_arg13 : FVec F S500000x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128x128 .f32) (main_arg11 : FVec F S128 .f32) (main_arg12 : FVec F S500000x128 .f32) (main_arg13 : FVec F S500000x128 .f32) (main_arg14 : IVec S500000 32) (main_arg15 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S128x128 : Shape := ⟨2, ![128, 128]⟩
abbrev S128 : Shape := ⟨1, ![128]⟩
abbrev S500000x128 : Shape := ⟨2, ![500000, 128]⟩
abbrev S500000 : Shape := ⟨1, ![500000]⟩
abbrev S_ : Shape := ⟨0, ![]⟩
abbrev S500000x1 : Shape := ⟨2, ![500000, 1]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩
abbrev S1000000 : Shape := ⟨1, ![1000000]⟩

abbrev nBuf : Space → Nat
  | .hbm => 65
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S500000x128, .f32⟩
  | .hbm, ⟨13, _⟩ => ⟨S500000x128, .f32⟩
  | .hbm, ⟨14, _⟩ => ⟨S500000, .i32⟩
  | .hbm, ⟨15, _⟩ => ⟨S500000, .i32⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S128x128, .bf16⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S500000x1, .f32⟩
  | .hbm, ⟨43, _⟩ => ⟨S500000, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S500000x1, .f32⟩
  | .hbm, ⟨63, _⟩ => ⟨S500000, .f32⟩
  | .hbm, ⟨64, _⟩ => ⟨S1000000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S4000x1, .f32⟩
  | .local _ .vmem, ⟨13, _⟩ => ⟨S4000x1, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S4000x1, .f32⟩
  | .local _ .vmem, ⟨27, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S128x128_S128x128_1_0 : S128x128.Transposes [1, 0] S128x128
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S500000x1_S500000 : S500000x1.ShapeCasts S500000
  concatenates_S500000_S500000_S1000000_d0 : Shape.Concatenates [S500000, S500000] S1000000 0
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S500000x1.size a
  hwx0_9 : ∀ i : grid0.Coords, EltTy.bits .f32 = 32 ∨ (Rect.block (s := S500000x1) S4000x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .f32 = 32 ∨ (Rect.block (s := S500000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S500000x128.size a
  hwx1_1 : ∀ i : grid1.Coords, EltTy.bits .f32 = 32 ∨ (Rect.block (s := S500000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S500000x128.size a
  hwx1_2 : ∀ i : grid1.Coords, EltTy.bits .f32 = 32 ∨ (Rect.block (s := S500000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x1.size a ≤ S500000x1.size a
  hwx1_9 : ∀ i : grid1.Coords, EltTy.bits .f32 = 32 ∨ (Rect.block (s := S500000x1) S4000x1.size (cc1_transform_9 i) (hinb1_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S4000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S500000x128 : Shape := ⟨2, ![500000, 128]⟩
abbrev S500000 : Shape := ⟨1, ![500000]⟩
abbrev S_ : Shape := ⟨0, ![]⟩
abbrev S500000x1 : Shape := ⟨2, ![500000, 1]⟩
abbrev S1x128 : Shape := ⟨2, ![1, 128]⟩
abbrev S1000000 : Shape := ⟨1, ![1000000]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S500000x128, .f32⟩
  | .hbm, ⟨13, _⟩ => ⟨S500000x128, .f32⟩
  | .hbm, ⟨14, _⟩ => ⟨S500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S500000x128, .f32⟩
  | .hbm, ⟨26, _⟩ => ⟨S500000x128, .f32⟩
  | .hbm, ⟨27, _⟩ => ⟨S128x128, .f32⟩
  | .hbm, ⟨28, _⟩ => ⟨S500000x128, .f32⟩
  | .hbm, ⟨29, _⟩ => ⟨S1x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S_, .f32⟩
  | .hbm, ⟨34, _⟩ => ⟨S500000x128, .f32⟩
  | .hbm, ⟨35, _⟩ => ⟨S500000x128, .i1⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S500000x128, .f32⟩
  | .hbm, ⟨40, _⟩ => ⟨S128x128, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S_, .f32⟩
  | .hbm, ⟨47, _⟩ => ⟨S500000x128, .f32⟩
  | .hbm, ⟨48, _⟩ => ⟨S500000x128, .i1⟩
  | .hbm, ⟨49, _⟩ => ⟨S_, .f32⟩
  | .hbm, ⟨50, _⟩ => ⟨S500000x128, .f32⟩
  | .hbm, ⟨51, _⟩ => ⟨S500000x128, .f32⟩
  | .hbm, ⟨52, _⟩ => ⟨S500000x128, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S500000, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .f32⟩
  | .hbm, ⟨75, _⟩ => ⟨S500000x128, .f32⟩
  | .hbm, ⟨76, _⟩ => ⟨S500000x128, .f32⟩
  | .hbm, ⟨77, _⟩ => ⟨S128x128, .f32⟩
  | .hbm, ⟨78, _⟩ => ⟨S500000x128, .f32⟩
  | .hbm, ⟨79, _⟩ => ⟨S1x128, .f32⟩
  | .hbm, ⟨80, _⟩ => ⟨S500000x128, .f32⟩
  | .hbm, ⟨81, _⟩ => ⟨S500000x128, .f32⟩
  | .hbm, ⟨82, _⟩ => ⟨S_, .f32⟩
  | .hbm, ⟨83, _⟩ => ⟨S_, .f32⟩
  | .hbm, ⟨84, _⟩ => ⟨S500000x128, .f32⟩
  | .hbm, ⟨85, _⟩ => ⟨S500000x128, .i1⟩
  | .hbm, ⟨86, _⟩ => ⟨S_, .f32⟩
  | .hbm, ⟨87, _⟩ => ⟨S500000x128, .f32⟩
  | .hbm, ⟨88, _⟩ => ⟨S500000x128, .f32⟩
  | .hbm, ⟨89, _⟩ => ⟨S500000x128, .f32⟩
  | .hbm, ⟨90, _⟩ => ⟨S128x128, .f32⟩
  | .hbm, ⟨91, _⟩ => ⟨S500000x128, .f32⟩
  | .hbm, ⟨92, _⟩ => ⟨S1x128, .f32⟩
  | .hbm, ⟨93, _⟩ => ⟨S500000x128, .f32⟩
  | .hbm, ⟨94, _⟩ => ⟨S500000x128, .f32⟩
  | .hbm, ⟨95, _⟩ => ⟨S_, .f32⟩
  | .hbm, ⟨96, _⟩ => ⟨S_, .f32⟩
  | .hbm, ⟨97, _⟩ => ⟨S500000x128, .f32⟩
  | .hbm, ⟨98, _⟩ => ⟨S500000x128, .i1⟩
  | .hbm, ⟨99, _⟩ => ⟨S_, .f32⟩
  | .hbm, ⟨100, _⟩ => ⟨S500000x128, .f32⟩
  | .hbm, ⟨101, _⟩ => ⟨S500000x128, .f32⟩
  | .hbm, ⟨102, _⟩ => ⟨S500000x128, .f32⟩
  | .hbm, ⟨103, _⟩ => ⟨S_, .i32⟩
  | .hbm, ⟨104, _⟩ => ⟨S500000, .i32⟩
  | .hbm, ⟨105, _⟩ => ⟨S500000, .i1⟩
  | .hbm, ⟨106, _⟩ => ⟨S_, .i32⟩
  | .hbm, ⟨107, _⟩ => ⟨S500000, .i32⟩
  | .hbm, ⟨108, _⟩ => ⟨S500000, .i32⟩
  | .hbm, ⟨109, _⟩ => ⟨S500000, .i32⟩
  | .hbm, ⟨110, _⟩ => ⟨S500000x1, .i32⟩
  | .hbm, ⟨111, _⟩ => ⟨S500000x128, .f32⟩
  | .hbm, ⟨112, _⟩ => ⟨S500000x128, .f32⟩
  | .hbm, ⟨113, _⟩ => ⟨S500000x128, .f32⟩
  | .hbm, ⟨114, _⟩ => ⟨S_, .f32⟩
  | .hbm, ⟨115, _⟩ => ⟨S500000, .f32⟩
  | .hbm, ⟨116, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v20 : Ref sig .tc := ⟨.hbm, 52, rfl⟩
abbrev main_c_2 : Ref sig .tc := ⟨.hbm, 53, rfl⟩
abbrev main_v21 : Ref sig .tc := ⟨.hbm, 54, rfl⟩
abbrev main_v22 : Ref sig .tc := ⟨.hbm, 55, rfl⟩
abbrev main_c_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_c_5 : Ref sig .tc := ⟨.hbm, 66, rfl⟩
abbrev main_v31 : Ref sig .tc := ⟨.hbm, 67, rfl⟩
abbrev main_v32 : Ref sig .tc := ⟨.hbm, 68, rfl⟩
abbrev main_c_6 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_7 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_8 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v51 : Ref sig .tc := ⟨.hbm, 102, rfl⟩
abbrev main_c_9 : Ref sig .tc := ⟨.hbm, 103, rfl⟩
abbrev main_v52 : Ref sig .tc := ⟨.hbm, 104, rfl⟩
abbrev main_v53 : Ref sig .tc := ⟨.hbm, 105, rfl⟩
abbrev main_c_10 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_11 : Ref sig .tc := ⟨.hbm, 114, rfl⟩
abbrev main_v61 : Ref sig .tc := ⟨.hbm, 115, rfl⟩
abbrev main_v62 : Ref sig .tc := ⟨.hbm, 116, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  concatenates_S500000_S500000_S1000000_d0 : Shape.Concatenates [S500000, S500000] S1000000 0
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.RefTerm.lean ====
/-
  The reference's result as one term of its sixteen arguments.

  For one edge type: the index vector is made non-negative (a negative index has the table's length added), the rows of the
  generator table and of the discriminator table are gathered at it, and the edge scores are the row sums of
  (D . Md) * act ((act ((H . Mg + noise) . W1^T + b1)) . W2^T + b2), act the leaky rectifier with the weak test.
  The result is the two edge types' score vectors, one after the other.
-/
import proofs.«120556_j4629974745849_1_alg».proof.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

/-- The rows of a table gathered at an index vector, a negative index counted from the table's end. -/
def gath (x : FVec F S100000x128 .f32) (idx : IVec S500000 32) : FVec F S500000x128 .f32 :=
  Host.gather gather_S100000x128_S500000x1_S500000x128_1_0_n_n_0_1_1128 x
    (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 100000#32))) idx))

/-- The leaky rectifier as the reference's outlined function computes it: x where x >= 0, 0.01 * x elsewhere. -/
def lrelu (x : FVec F S500000x128 .f32) : FVec F S500000x128 .f32 :=
  select (cmpf .oge x (broadcastInDim S500000x128 ![] bcast_S_S500000x128 (constant S_ .f32 0x00000000#32))) x
    (mulf (broadcastInDim S500000x128 ![] bcast_S_S500000x128 (id (constant S_ .f32 0x3C23D70A#32))) x)

/-- A bias row laid under every edge. -/
def biasRows (b : FVec F S128 .f32) : FVec F S500000x128 .f32 :=
  broadcastInDim S500000x128 ![0, 1] bcast_S1x128_S500000x128_0_1 (broadcastInDim S1x128 ![1] bcast_S128_S1x128_1 b)

/-- One layer: the product with the transposed weight, the bias, the rectifier. -/
def layer (g : FVec F S500000x128 .f32) (W : FVec F S128x128 .f32) (b : FVec F S128 .f32) : FVec F S500000x128 .f32 :=
  lrelu (addf (Host.dotGeneral dot_S500000x128_S128x128_S500000x128_1_0_0_1_n_n none g
    (transpose S128x128 [1, 0] W transposes_S128x128_S128x128_1_0)) (biasRows b))

/-- One edge type's scores. -/
def etype (emb dis : FVec F S100000x128 .f32) (Mg Md W1 : FVec F S128x128 .f32) (b1 : FVec F S128 .f32)
    (W2 : FVec F S128x128 .f32) (b2 : FVec F S128 .f32) (noise : FVec F S500000x128 .f32) (idx : IVec S500000 32) :
    FVec F S500000 .f32 :=
  Host.reduceAdd
    (mulf (Host.dotGeneral dot_S500000x128_S128x128_S500000x128_1_0_0_1_n_n none (gath dis idx) Md)
      (layer (layer (addf (Host.dotGeneral dot_S500000x128_S128x128_S500000x128_1_0_0_1_n_n none (gath emb idx) Mg) noise) W1 b1) W2 b2))
    (constant S_ .f32 0x00000000#32) reducesTo_S500000x128_S500000_d1 h_S_

/-- The reference's result: the first edge type's scores, then the second's. -/
def result (a0 a1 a2 a3 : FVec F S100000x128 .f32) (a4 a5 a6 a7 a8 : FVec F S128x128 .f32) (a9 : FVec F S128 .f32)
    (a10 : FVec F S128x128 .f32) (a11 : FVec F S128 .f32) (a12 a13 : FVec F S500000x128 .f32) (a14 a15 : IVec S500000 32) :
    FVec F S1000000 .f32 :=
  concatenate S1000000 0 [⟨S500000, etype a0 a2 a4 a6 a8 a9 a10 a11 a12 a14⟩, ⟨S500000, etype a1 a3 a5 a7 a8 a9 a10 a11 a13 a15⟩]
    concatenates_S500000_S500000_S1000000_d0

end Cert.ReferenceIdeal.Hand

end
-- ==== Proof.RefRun.lean ====
/-
  The reference's run: every weakly fair execution of its main ends with the result buffer at the reference's result term
  of the launch contents of the sixteen arguments, the arguments unchanged.

  The main program is a straight line of one hundred and one whole-buffer operations, each writing one buffer of its own
  from the contents of earlier ones. What a buffer holds at the end is therefore the composition of the operations that
  lead to it, read backwards from that buffer to the arguments; no operation writes an argument. The two edge types'
  score vectors are read off first, each as one term of the arguments, and the final concatenation joins them.
-/
import proofs.«120556_j4629974745849_1_alg».proof.Proof.Gen.ReferenceIdeal
import proofs.«120556_j4629974745849_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The hundred operations before the final concatenation, in program order. Each of the four calls of the leaky
    rectifier is written out as the seven operations of its body over the buffers that call owns: the zero and its
    broadcast, the comparison of the input with zero, the slope passed on unchanged and its broadcast, the product of
    slope and input, and the selection between input and product. -/
abbrev opsH : List (HloOp τ sig (Elt F)) :=
  [ nullary main_c (constantI S_ 32 0#32),
    unary main_c main_v0 (broadcastInDim S500000 ![] bcast_S_S500000 : (⟨S_, .i32⟩ : BufTy).Contents (Elt F) → (⟨S500000, .i32⟩ : BufTy).Contents (Elt F)),
    binary main_arg14 main_v0 main_v1 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v2 (broadcastInDim S500000 ![] bcast_S_S500000 : (⟨S_, .i32⟩ : BufTy).Contents (Elt F) → (⟨S500000, .i32⟩ : BufTy).Contents (Elt F)),
    binary main_arg14 main_v2 main_v3 (addi : (⟨S500000, .i32⟩ : BufTy).Contents (Elt F) → (⟨S500000, .i32⟩ : BufTy).Contents (Elt F) → (⟨S500000, .i32⟩ : BufTy).Contents (Elt F)),
    ternary main_v1 main_v3 main_arg14 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v4 main_v5 (broadcastInDim S500000x1 ![0] bcast_S500000_S500000x1_0 : (⟨S500000, .i32⟩ : BufTy).Contents (Elt F) → (⟨S500000x1, .i32⟩ : BufTy).Contents (Elt F)),
    binary main_arg0 main_v5 main_v6 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    binary main_v6 main_arg4 main_v7 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    binary main_v7 main_arg12 main_v8 (addf : (⟨S500000x128, .f32⟩ : BufTy).Contents (Elt F) → (⟨S500000x128, .f32⟩ : BufTy).Contents (Elt F) → (⟨S500000x128, .f32⟩ : BufTy).Contents (Elt F)),
    unary main_arg8 main_v9 ((transpose S128x128 [1, 0] · transposes_S128x128_S128x128_1_0) : (⟨S128x128, .f32⟩ : BufTy).Contents (Elt F) → (⟨S128x128, .f32⟩ : BufTy).Contents (Elt F)),
    binary main_v8 main_v9 main_v10 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg9 main_v11 (broadcastInDim S1x128 ![1] bcast_S128_S1x128_1 : (⟨S128, .f32⟩ : BufTy).Contents (Elt F) → (⟨S1x128, .f32⟩ : BufTy).Contents (Elt F)),
    unary main_v11 main_v12 (broadcastInDim S500000x128 ![0, 1] bcast_S1x128_S500000x128_0_1 : (⟨S1x128, .f32⟩ : BufTy).Contents (Elt F) → (⟨S500000x128, .f32⟩ : BufTy).Contents (Elt F)),
    binary main_v10 main_v12 main_v13 (addf : (⟨S500000x128, .f32⟩ : BufTy).Contents (Elt F) → (⟨S500000x128, .f32⟩ : BufTy).Contents (Elt F) → (⟨S500000x128, .f32⟩ : BufTy).Contents (Elt F)),
    nullary main_cst (constant S_ .f32 0x3C23D70A#32),
    nullary main_call0_cst (constant S_ .f32 0x00000000#32),
    unary main_call0_cst main_call0_v0 (broadcastInDim S500000x128 ![] bcast_S_S500000x128 : (⟨S_, .f32⟩ : BufTy).Contents (Elt F) → (⟨S500000x128, .f32⟩ : BufTy).Contents (Elt F)),
    binary main_v13 main_call0_v0 main_call0_v1 (cmpf .oge : (⟨S500000x128, .f32⟩ : BufTy).Contents (Elt F) → (⟨S500000x128, .f32⟩ : BufTy).Contents (Elt F) → (⟨S500000x128, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S500000x128 ![] bcast_S_S500000x128 : (⟨S_, .f32⟩ : BufTy).Contents (Elt F) → (⟨S500000x128, .f32⟩ : BufTy).Contents (Elt F)),
    binary main_call0_v3 main_v13 main_call0_v4 (mulf : (⟨S500000x128, .f32⟩ : BufTy).Contents (Elt F) → (⟨S500000x128, .f32⟩ : BufTy).Contents (Elt F) → (⟨S500000x128, .f32⟩ : BufTy).Contents (Elt F)),
    ternary main_call0_v1 main_v13 main_call0_v4 main_v14 (select : (⟨S500000x128, .i1⟩ : BufTy).Contents (Elt F) → (⟨S500000x128, .f32⟩ : BufTy).Contents (Elt F) → (⟨S500000x128, .f32⟩ : BufTy).Contents (Elt F) → (⟨S500000x128, .f32⟩ : BufTy).Contents (Elt F)),
    unary main_arg10 main_v15 ((transpose S128x128 [1, 0] · transposes_S128x128_S128x128_1_0) : (⟨S128x128, .f32⟩ : BufTy).Contents (Elt F) → (⟨S128x128, .f32⟩ : BufTy).Contents (Elt F)),
    binary main_v14 main_v15 main_v16 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg11 main_v17 (broadcastInDim S1x128 ![1] bcast_S128_S1x128_1 : (⟨S128, .f32⟩ : BufTy).Contents (Elt F) → (⟨S1x128, .f32⟩ : BufTy).Contents (Elt F)),
    unary main_v17 main_v18 (broadcastInDim S500000x128 ![0, 1] bcast_S1x128_S500000x128_0_1 : (⟨S1x128, .f32⟩ : BufTy).Contents (Elt F) → (⟨S500000x128, .f32⟩ : BufTy).Contents (Elt F)),
    binary main_v16 main_v18 main_v19 (addf : (⟨S500000x128, .f32⟩ : BufTy).Contents (Elt F) → (⟨S500000x128, .f32⟩ : BufTy).Contents (Elt F) → (⟨S500000x128, .f32⟩ : BufTy).Contents (Elt F)),
    nullary main_cst_1 (constant S_ .f32 0x3C23D70A#32),
    nullary main_call1_cst (constant S_ .f32 0x00000000#32),
    unary main_call1_cst main_call1_v0 (broadcastInDim S500000x128 ![] bcast_S_S500000x128 : (⟨S_, .f32⟩ : BufTy).Contents (Elt F) → (⟨S500000x128, .f32⟩ : BufTy).Contents (Elt F)),
    binary main_v19 main_call1_v0 main_call1_v1 (cmpf .oge : (⟨S500000x128, .f32⟩ : BufTy).Contents (Elt F) → (⟨S500000x128, .f32⟩ : BufTy).Contents (Elt F) → (⟨S500000x128, .i1⟩ : BufTy).Contents (Elt F)),
    unary main_cst_1 main_call1_v2 (id : (⟨S_, .f32⟩ : BufTy).Contents (Elt F) → (⟨S_, .f32⟩ : BufTy).Contents (Elt F)),
    unary main_call1_v2 main_call1_v3 (broadcastInDim S500000x128 ![] bcast_S_S500000x128 : (⟨S_, .f32⟩ : BufTy).Contents (Elt F) → (⟨S500000x128, .f32⟩ : BufTy).Contents (Elt F)),
    binary main_call1_v3 main_v19 main_call1_v4 (mulf : (⟨S500000x128, .f32⟩ : BufTy).Contents (Elt F) → (⟨S500000x128, .f32⟩ : BufTy).Contents (Elt F) → (⟨S500000x128, .f32⟩ : BufTy).Contents (Elt F)),
    ternary main_call1_v1 main_v19 main_call1_v4 main_v20 (select : (⟨S500000x128, .i1⟩ : BufTy).Contents (Elt F) → (⟨S500000x128, .f32⟩ : BufTy).Contents (Elt F) → (⟨S500000x128, .f32⟩ : BufTy).Contents (Elt F) → (⟨S500000x128, .f32⟩ : BufTy).Contents (Elt F)),
    nullary main_c_2 (constantI S_ 32 0#32),
    unary main_c_2 main_v21 (broadcastInDim S500000 ![] bcast_S_S500000 : (⟨S_, .i32⟩ : BufTy).Contents (Elt F) → (⟨S500000, .i32⟩ : BufTy).Contents (Elt F)),
    binary main_arg14 main_v21 main_v22 (cmpi .slt : (⟨S500000, .i32⟩ : BufTy).Contents (Elt F) → (⟨S500000, .i32⟩ : BufTy).Contents (Elt F) → (⟨S500000, .i1⟩ : BufTy).Contents (Elt F)),
    nullary main_c_3 (constantI S_ 32 100000#32),
    unary main_c_3 main_v23 (broadcastInDim S500000 ![] bcast_S_S500000 : (⟨S_, .i32⟩ : BufTy).Contents (Elt F) → (⟨S500000, .i32⟩ : BufTy).Contents (Elt F)),
    binary main_arg14 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_arg14 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_arg2 main_v26 main_v27 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    binary main_v27 main_arg6 main_v28 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    binary main_v28 main_v20 main_v29 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v29 main_cst_4 main_v30 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    nullary main_c_5 (constantI S_ 32 0#32),
    unary main_c_5 main_v31 (broadcastInDim S500000 ![] bcast_S_S500000 : (⟨S_, .i32⟩ : BufTy).Contents (Elt F) → (⟨S500000, .i32⟩ : BufTy).Contents (Elt F)),
    binary main_arg15 main_v31 main_v32 (cmpi .slt : (⟨S500000, .i32⟩ : BufTy).Contents (Elt F) → (⟨S500000, .i32⟩ : BufTy).Contents (Elt F) → (⟨S500000, .i1⟩ : BufTy).Contents (Elt F)),
    nullary main_c_6 (constantI S_ 32 100000#32),
    unary main_c_6 main_v33 (broadcastInDim S500000 ![] bcast_S_S500000 : (⟨S_, .i32⟩ : BufTy).Contents (Elt F) → (⟨S500000, .i32⟩ : BufTy).Contents (Elt F)),
    binary main_arg15 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_arg15 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_arg1 main_v36 main_v37 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    binary main_v37 main_arg5 main_v38 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    binary main_v38 main_arg13 main_v39 (addf : (⟨S500000x128, .f32⟩ : BufTy).Contents (Elt F) → (⟨S500000x128, .f32⟩ : BufTy).Contents (Elt F) → (⟨S500000x128, .f32⟩ : BufTy).Contents (Elt F)),
    unary main_arg8 main_v40 ((transpose S128x128 [1, 0] · transposes_S128x128_S128x128_1_0) : (⟨S128x128, .f32⟩ : BufTy).Contents (Elt F) → (⟨S128x128, .f32⟩ : BufTy).Contents (Elt F)),
    binary main_v39 main_v40 main_v41 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg9 main_v42 (broadcastInDim S1x128 ![1] bcast_S128_S1x128_1 : (⟨S128, .f32⟩ : BufTy).Contents (Elt F) → (⟨S1x128, .f32⟩ : BufTy).Contents (Elt F)),
    unary main_v42 main_v43 (broadcastInDim S500000x128 ![0, 1] bcast_S1x128_S500000x128_0_1 : (⟨S1x128, .f32⟩ : BufTy).Contents (Elt F) → (⟨S500000x128, .f32⟩ : BufTy).Contents (Elt F)),
    binary main_v41 main_v43 main_v44 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x3C23D70A#32),
    nullary main_call2_cst (constant S_ .f32 0x00000000#32),
    unary main_call2_cst main_call2_v0 (broadcastInDim S500000x128 ![] bcast_S_S500000x128 : (⟨S_, .f32⟩ : BufTy).Contents (Elt F) → (⟨S500000x128, .f32⟩ : BufTy).Contents (Elt F)),
    binary main_v44 main_call2_v0 main_call2_v1 (cmpf .oge : (⟨S500000x128, .f32⟩ : BufTy).Contents (Elt F) → (⟨S500000x128, .f32⟩ : BufTy).Contents (Elt F) → (⟨S500000x128, .i1⟩ : BufTy).Contents (Elt F)),
    unary main_cst_7 main_call2_v2 (id : (⟨S_, .f32⟩ : BufTy).Contents (Elt F) → (⟨S_, .f32⟩ : BufTy).Contents (Elt F)),
    unary main_call2_v2 main_call2_v3 (broadcastInDim S500000x128 ![] bcast_S_S500000x128 : (⟨S_, .f32⟩ : BufTy).Contents (Elt F) → (⟨S500000x128, .f32⟩ : BufTy).Contents (Elt F)),
    binary main_call2_v3 main_v44 main_call2_v4 (mulf : (⟨S500000x128, .f32⟩ : BufTy).Contents (Elt F) → (⟨S500000x128, .f32⟩ : BufTy).Contents (Elt F) → (⟨S500000x128, .f32⟩ : BufTy).Contents (Elt F)),
    ternary main_call2_v1 main_v44 main_call2_v4 main_v45 (select : (⟨S500000x128, .i1⟩ : BufTy).Contents (Elt F) → (⟨S500000x128, .f32⟩ : BufTy).Contents (Elt F) → (⟨S500000x128, .f32⟩ : BufTy).Contents (Elt F) → (⟨S500000x128, .f32⟩ : BufTy).Contents (Elt F)),
    unary main_arg10 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg11 main_v48 (broadcastInDim S1x128 ![1] bcast_S128_S1x128_1 : (⟨S128, .f32⟩ : BufTy).Contents (Elt F) → (⟨S1x128, .f32⟩ : BufTy).Contents (Elt F)),
    unary main_v48 main_v49 (broadcastInDim S500000x128 ![0, 1] bcast_S1x128_S500000x128_0_1 : (⟨S1x128, .f32⟩ : BufTy).Contents (Elt F) → (⟨S500000x128, .f32⟩ : BufTy).Contents (Elt F)),
    binary main_v47 main_v49 main_v50 (addf : (⟨S500000x128, .f32⟩ : BufTy).Contents (Elt F) → (⟨S500000x128, .f32⟩ : BufTy).Contents (Elt F) → (⟨S500000x128, .f32⟩ : BufTy).Contents (Elt F)),
    nullary main_cst_8 (constant S_ .f32 0x3C23D70A#32),
    nullary main_call3_cst (constant S_ .f32 0x00000000#32),
    unary main_call3_cst main_call3_v0 (broadcastInDim S500000x128 ![] bcast_S_S500000x128 : (⟨S_, .f32⟩ : BufTy).Contents (Elt F) → (⟨S500000x128, .f32⟩ : BufTy).Contents (Elt F)),
    binary main_v50 main_call3_v0 main_call3_v1 (cmpf .oge : (⟨S500000x128, .f32⟩ : BufTy).Contents (Elt F) → (⟨S500000x128, .f32⟩ : BufTy).Contents (Elt F) → (⟨S500000x128, .i1⟩ : BufTy).Contents (Elt F)),
    unary main_cst_8 main_call3_v2 (id : (⟨S_, .f32⟩ : BufTy).Contents (Elt F) → (⟨S_, .f32⟩ : BufTy).Contents (Elt F)),
    unary main_call3_v2 main_call3_v3 (broadcastInDim S500000x128 ![] bcast_S_S500000x128 : (⟨S_, .f32⟩ : BufTy).Contents (Elt F) → (⟨S500000x128, .f32⟩ : BufTy).Contents (Elt F)),
    binary main_call3_v3 main_v50 main_call3_v4 (mulf : (⟨S500000x128, .f32⟩ : BufTy).Contents (Elt F) → (⟨S500000x128, .f32⟩ : BufTy).Contents (Elt F) → (⟨S500000x128, .f32⟩ : BufTy).Contents (Elt F)),
    ternary main_call3_v1 main_v50 main_call3_v4 main_v51 (select : (⟨S500000x128, .i1⟩ : BufTy).Contents (Elt F) → (⟨S500000x128, .f32⟩ : BufTy).Contents (Elt F) → (⟨S500000x128, .f32⟩ : BufTy).Contents (Elt F) → (⟨S500000x128, .f32⟩ : BufTy).Contents (Elt F)),
    nullary main_c_9 (constantI S_ 32 0#32),
    unary main_c_9 main_v52 (broadcastInDim S500000 ![] bcast_S_S500000 : (⟨S_, .i32⟩ : BufTy).Contents (Elt F) → (⟨S500000, .i32⟩ : BufTy).Contents (Elt F)),
    binary main_arg15 main_v52 main_v53 (cmpi .slt : (⟨S500000, .i32⟩ : BufTy).Contents (Elt F) → (⟨S500000, .i32⟩ : BufTy).Contents (Elt F) → (⟨S500000, .i1⟩ : BufTy).Contents (Elt F)),
    nullary main_c_10 (constantI S_ 32 100000#32),
    unary main_c_10 main_v54 (broadcastInDim S500000 ![] bcast_S_S500000 : (⟨S_, .i32⟩ : BufTy).Contents (Elt F) → (⟨S500000, .i32⟩ : BufTy).Contents (Elt F)),
    binary main_arg15 main_v54 main_v55 (addi : (⟨S500000, .i32⟩ : BufTy).Contents (Elt F) → (⟨S500000, .i32⟩ : BufTy).Contents (Elt F) → (⟨S500000, .i32⟩ : BufTy).Contents (Elt F)),
    ternary main_v53 main_v55 main_arg15 main_v56 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v56 main_v57 (broadcastInDim S500000x1 ![0] bcast_S500000_S500000x1_0 : (⟨S500000, .i32⟩ : BufTy).Contents (Elt F) → (⟨S500000x1, .i32⟩ : BufTy).Contents (Elt F)),
    binary main_arg3 main_v57 main_v58 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    binary main_v58 main_arg7 main_v59 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    binary main_v59 main_v51 main_v60 (mulf : (⟨S500000x128, .f32⟩ : BufTy).Contents (Elt F) → (⟨S500000x128, .f32⟩ : BufTy).Contents (Elt F) → (⟨S500000x128, .f32⟩ : BufTy).Contents (Elt F)),
    nullary main_cst_11 (constant S_ .f32 0x00000000#32),
    binary main_v60 main_cst_11 main_v61 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) ]

/-- The last operation: the two score vectors laid end to end. -/
abbrev opC : HloOp τ sig (Elt F) :=
  binary main_v30 main_v61 main_v62 ((fun a b => concatenate S1000000 0 [⟨S500000, a⟩, ⟨S500000, b⟩] concatenates_S500000_S500000_S1000000_d0) : (⟨S500000, .f32⟩ : BufTy).Contents (Elt F) → (⟨S500000, .f32⟩ : BufTy).Contents (Elt F) → (⟨S1000000, .f32⟩ : BufTy).Contents (Elt F))

/-- All the operations of the main program, in order. -/
abbrev ops : List (HloOp τ sig (Elt F)) := opsH ++ [opC]

/-- Running one list of operations and then another from the contents the first leaves is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
set_option maxHeartbeats 4000000 in
/-- The main program is the straight line of these operations: with its two windows and the outlined functions opened
    at their calls, and sequencing reassociated to the right, both sides are the same chain of steps. -/
theorem main_eq (c : Dev nD) : main (F := F) c = seq ops := by
  simp only [main, main_part0, main_part1, fn_leaky_relu.body, fn_where.body, ops, seq_append, seq, bind_assoc, pure_bind]
  rfl

/-- No buffer of this signature is scoped. -/
theorem scopedRefs_eq : (Finset.univ.filter fun b : Ref sig .tc => b.isScoped) = ∅ := by decide
/-- No semaphore of this signature is scoped. -/
theorem scopedSems_eq : (Finset.univ.filter fun sm : SemLoc sig => sm.isScoped .tc) = ∅ := by decide

set_option maxRecDepth 8192 in
/-- Each of the first hundred operations touches TensorCore buffers only. -/
theorem opsH_sub : (opsH : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub ..⟩

/-- Every operation touches TensorCore buffers only: one of the first hundred, or the concatenation. -/
theorem ops_sub : (ops : List (HloOp τ sig (Elt F))).Forall fun op => op.bufs ⊆ tcRefs τ sig :=
  List.forall_iff_forall_mem.mpr fun op h => by
    simp only [ops, List.mem_append, List.mem_singleton] at h
    rcases h with h | rfl
    · exact List.forall_iff_forall_mem.mp opsH_sub op h
    · exact binary_bufs_sub ..

set_option maxRecDepth 8192 in
set_option maxHeartbeats 8000000 in
/-- After the first hundred operations the first edge type's score buffer holds that edge type's scores, as one term of
    what the arguments held before: each operation on the way contributes its function, every other one leaves the
    buffers read untouched. -/
theorem h30 (V : Valuation τ sig (Elt F)) :
    after opsH V (Proc.devRef .tc main_v30) = etype (V (Proc.devRef .tc main_arg0)) (V (Proc.devRef .tc main_arg2)) (V (Proc.devRef .tc main_arg4)) (V (Proc.devRef .tc main_arg6)) (V (Proc.devRef .tc main_arg8)) (V (Proc.devRef .tc main_arg9)) (V (Proc.devRef .tc main_arg10)) (V (Proc.devRef .tc main_arg11)) (V (Proc.devRef .tc main_arg12)) (V (Proc.devRef .tc main_arg14)) := by
  after_results_simp
  rfl

set_option maxRecDepth 8192 in
set_option maxHeartbeats 8000000 in
/-- The same for the second edge type: its tables, its matrices, its noise and its index vector, the two layers shared. -/
theorem h61 (V : Valuation τ sig (Elt F)) :
    after opsH V (Proc.devRef .tc main_v61) = etype (V (Proc.devRef .tc main_arg1)) (V (Proc.devRef .tc main_arg3)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg13)) (V (Proc.devRef .tc main_arg15)) := by
  after_results_simp
  rfl

/-- After all the operations the result buffer holds the first edge type's scores followed by the second's. -/
theorem v62_eq (V : Valuation τ sig (Elt F)) :
    after ops V (Proc.devRef .tc main_v62) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_append, after_cons, after_nil, binary_result, h30, h61]
  rfl

/-! No operation writes an argument: each argument's buffer holds at the end what it held at the start. -/

set_option maxRecDepth 8192 in
set_option maxHeartbeats 4000000 in
theorem arg0_eq (V : Valuation τ sig (Elt F)) :
    after ops V (Proc.devRef .tc main_arg0) = V (Proc.devRef .tc main_arg0) := by
  rw [after_append]
  after_results_simp

set_option maxRecDepth 8192 in
set_option maxHeartbeats 4000000 in
theorem arg1_eq (V : Valuation τ sig (Elt F)) :
    after ops V (Proc.devRef .tc main_arg1) = V (Proc.devRef .tc main_arg1) := by
  rw [after_append]
  after_results_simp

set_option maxRecDepth 8192 in
set_option maxHeartbeats 4000000 in
theorem arg2_eq (V : Valuation τ sig (Elt F)) :
    after ops V (Proc.devRef .tc main_arg2) = V (Proc.devRef .tc main_arg2) := by
  rw [after_append]
  after_results_simp

set_option maxRecDepth 8192 in
set_option maxHeartbeats 4000000 in
theorem arg3_eq (V : Valuation τ sig (Elt F)) :
    after ops V (Proc.devRef .tc main_arg3) = V (Proc.devRef .tc main_arg3) := by
  rw [after_append]
  after_results_simp

set_option maxRecDepth 8192 in
set_option maxHeartbeats 4000000 in
theorem arg4_eq (V : Valuation τ sig (Elt F)) :
    after ops V (Proc.devRef .tc main_arg4) = V (Proc.devRef .tc main_arg4) := by
  rw [after_append]
  after_results_simp

set_option maxRecDepth 8192 in
set_option maxHeartbeats 4000000 in
theorem arg5_eq (V : Valuation τ sig (Elt F)) :
    after ops V (Proc.devRef .tc main_arg5) = V (Proc.devRef .tc main_arg5) := by
  rw [after_append]
  after_results_simp

set_option maxRecDepth 8192 in
set_option maxHeartbeats 4000000 in
theorem arg6_eq (V : Valuation τ sig (Elt F)) :
    after ops V (Proc.devRef .tc main_arg6) = V (Proc.devRef .tc main_arg6) := by
  rw [after_append]
  after_results_simp

set_option maxRecDepth 8192 in
set_option maxHeartbeats 4000000 in
theorem arg7_eq (V : Valuation τ sig (Elt F)) :
    after ops V (Proc.devRef .tc main_arg7) = V (Proc.devRef .tc main_arg7) := by
  rw [after_append]
  after_results_simp

set_option maxRecDepth 8192 in
set_option maxHeartbeats 4000000 in
theorem arg8_eq (V : Valuation τ sig (Elt F)) :
    after ops V (Proc.devRef .tc main_arg8) = V (Proc.devRef .tc main_arg8) := by
  rw [after_append]
  after_results_simp

set_option maxRecDepth 8192 in
set_option maxHeartbeats 4000000 in
theorem arg9_eq (V : Valuation τ sig (Elt F)) :
    after ops V (Proc.devRef .tc main_arg9) = V (Proc.devRef .tc main_arg9) := by
  rw [after_append]
  after_results_simp

set_option maxRecDepth 8192 in
set_option maxHeartbeats 4000000 in
theorem arg10_eq (V : Valuation τ sig (Elt F)) :
    after ops V (Proc.devRef .tc main_arg10) = V (Proc.devRef .tc main_arg10) := by
  rw [after_append]
  after_results_simp

set_option maxRecDepth 8192 in
set_option maxHeartbeats 4000000 in
theorem arg11_eq (V : Valuation τ sig (Elt F)) :
    after ops V (Proc.devRef .tc main_arg11) = V (Proc.devRef .tc main_arg11) := by
  rw [after_append]
  after_results_simp

set_option maxRecDepth 8192 in
set_option maxHeartbeats 4000000 in
theorem arg12_eq (V : Valuation τ sig (Elt F)) :
    after ops V (Proc.devRef .tc main_arg12) = V (Proc.devRef .tc main_arg12) := by
  rw [after_append]
  after_results_simp

set_option maxRecDepth 8192 in
set_option maxHeartbeats 4000000 in
theorem arg13_eq (V : Valuation τ sig (Elt F)) :
    after ops V (Proc.devRef .tc main_arg13) = V (Proc.devRef .tc main_arg13) := by
  rw [after_append]
  after_results_simp

set_option maxRecDepth 8192 in
set_option maxHeartbeats 4000000 in
theorem arg14_eq (V : Valuation τ sig (Elt F)) :
    after ops V (Proc.devRef .tc main_arg14) = V (Proc.devRef .tc main_arg14) := by
  rw [after_append]
  after_results_simp

set_option maxRecDepth 8192 in
set_option maxHeartbeats 4000000 in
theorem arg15_eq (V : Valuation τ sig (Elt F)) :
    after ops V (Proc.devRef .tc main_arg15) = V (Proc.devRef .tc main_arg15) := by
  rw [after_append]
  after_results_simp

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v62).trans (v62_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c))⟩)
    (run_seq scopedRefs_eq scopedSems_eq defs main (fun _ => ops) main_eq (fun _ => ops_sub) m ρ)

end Cert.ReferenceIdeal.Hand

end
-- ==== Proof.Spec.lean ====
/-
  The specification both programs meet, stated once over the extended reals.

  One edge type scores each of its 500000 edges from the edge's own rows only.  For an edge with gathered generator row h,
  noise row n and gathered discriminator row d (128 entries each), relation matrices Mg and Md, the two layers' weights as
  they are fed to the products (Wa and Wb, contraction index first) and biases ba and bb:

      g  j = (sum over k of h k * Mg k j) + n j
      u  j = act ((sum over k of g k * Wa k j) + ba j)
      v  j = act ((sum over k of u k * Wb k j) + bb j)
      s  j = sum over k of d k * Md k j
      score = sum over j of s j * v j

  where act is the leaky rectifier: z itself on the positive side, slope * z on the other.  The kernel tests z > 0 and the
  reference z >= 0; the two agree everywhere, since at z = 0 the other branch is slope * 0 = 0.
-/
import Idealize.ShloMosaic.PureOps.Ideal
import Idealize.ShloMosaic.Lib.ValueIdx

noncomputable section

namespace Cert.Spec

open Idealize.ShloMosaic Idealize.ShloMosaic.ValueIdx

/-- The rectifier's slope: the value of the word both programs write for 0.01. -/
def slope : EReal := Ideal.ofBits .f32 0x3C23D70A#32

/-- The rectifier with the strict test. -/
def actGt (z : EReal) : EReal := if 0 < z then z else slope * z

/-- The rectifier with the weak test. -/
def actGe (z : EReal) : EReal := if 0 ≤ z then z else slope * z

/-- The two tests differ only at zero, where both branches are zero. -/
theorem act_eq (z : EReal) : actGt z = actGe z := by
  unfold actGt actGe
  by_cases h : 0 < z
  · rw [if_pos h, if_pos h.le]
  · rw [if_neg h]
    by_cases h' : 0 ≤ z
    · have hz : z = 0 := le_antisymm (not_lt.mp h) h'
      rw [if_pos h', hz, mul_zero]
    · rw [if_neg h']

/-- One edge's score from its rows, the matrices and the biases. -/
def rowScore (act : EReal → EReal) (h n d : Fin 128 → EReal) (Mg Md Wa Wb : Fin 128 → Fin 128 → EReal)
    (ba bb : Fin 128 → EReal) : EReal :=
  ∑ j : Fin 128, (∑ k : Fin 128, d k * Md k j) *
    act ((∑ k : Fin 128, act ((∑ k' : Fin 128, ((∑ k'' : Fin 128, h k'' * Mg k'' k') + n k') * Wa k' k) + ba k) * Wb k j) + bb j)

/-- The score of edge e of one edge type, from the whole arrays: the gathered rows H and D, the noise N, the matrices as
    fed to the products, the biases. -/
def score (act : EReal → EReal) (H N D : (⟨2, ![500000, 128]⟩ : Shape).Idx → EReal)
    (Mg Md Wa Wb : (⟨2, ![128, 128]⟩ : Shape).Idx → EReal) (ba bb : (⟨1, ![128]⟩ : Shape).Idx → EReal) (e : Fin 500000) : EReal :=
  rowScore act (fun k => H (ix2 e k)) (fun k => N (ix2 e k)) (fun k => D (ix2 e k))
    (fun k j => Mg (ix2 k j)) (fun k j => Md (ix2 k j)) (fun k j => Wa (ix2 k j)) (fun k j => Wb (ix2 k j))
    (fun j => ba (ix1 j)) (fun j => bb (ix1 j))

theorem score_act_eq (H N D : (⟨2, ![500000, 128]⟩ : Shape).Idx → EReal)
    (Mg Md Wa Wb : (⟨2, ![128, 128]⟩ : Shape).Idx → EReal) (ba bb : (⟨1, ![128]⟩ : Shape).Idx → EReal) (e : Fin 500000) :
    score actGt H N D Mg Md Wa Wb ba bb e = score actGe H N D Mg Md Wa Wb ba bb e := by
  have : actGt = actGe := funext act_eq
  rw [this]

end Cert.Spec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.RefValue.lean ====
/-
  The reference's scores read at an edge: one edge type's score vector at edge e is the specification's score of that edge,
  with the weak rectifier, of the gathered rows, the noise, the relation matrices, the transposed layer weights and the biases.
-/
import proofs.«120556_j4629974745849_1_alg».proof.Proof.Gen.ReferenceIdeal
import proofs.«120556_j4629974745849_1_alg».proof.Proof.RefTerm
import proofs.«120556_j4629974745849_1_alg».proof.Proof.Spec
import proofs.«120556_j4629974745849_1_alg».proof.Proof.LibPlainDot
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

/-- The plain product of a 500000 x 128 array by a 128 x 128 matrix, read at (e, j): the sum over the contracted
    coordinate k of lhs (e, k) * rhs (k, j). -/
theorem dot_apply (lhs : FVec Ideal S500000x128 .f32) (rhs : FVec Ideal S128x128 .f32) (e : Fin 500000) (j : Fin 128) :
    Host.dotGeneral (F := Ideal) dot_S500000x128_S128x128_S500000x128_1_0_0_1_n_n none lhs rhs (ix2 e j)
      = ∑ k : Fin 128, lhs (ix2 e k) * rhs (ix2 k j) := by
  have hd : dot_S500000x128_S128x128_S500000x128_1_0_0_1_n_n = DotDims.plain 500000 128 128 := rfl
  rw [hd]
  show FloatOps.dotGeneral (DotDims.plain 500000 128 128) none .single lhs rhs (ix2 e j) = _
  rw [Ideal.dotGeneral_apply, ← Equiv.sum_comp (ValueIdx.contrEquiv1 (DotDims.plain 500000 128 128) 128 rfl rfl).symm]
  refine Finset.sum_congr rfl fun k _ => ?_
  have hk := ValueIdx.contrEquiv1_symm_val (DotDims.plain 500000 128 128) 128 rfl rfl k
  have el : (DotDims.plain 500000 128 128).lhsIdx (ix2 e j) ((ValueIdx.contrEquiv1 (DotDims.plain 500000 128 128) 128 rfl rfl).symm k) = ix2 e k :=
    funext fun a => Fin.ext (by
      match a with
      | ⟨0, _⟩ => rfl
      | ⟨1, _⟩ => exact hk)
  have er : (DotDims.plain 500000 128 128).rhsIdx (ix2 e j) ((ValueIdx.contrEquiv1 (DotDims.plain 500000 128 128) 128 rfl rfl).symm k) = ix2 k j :=
    funext fun a => Fin.ext (by
      match a with
      | ⟨0, _⟩ => exact hk
      | ⟨1, _⟩ => rfl)
  rw [el, er]

/-- The row sum read at edge e: the initial value is the zero word, so the result is the sum over the 128 columns. -/
theorem rowsum_apply (x : FVec Ideal S500000x128 .f32) (e : Fin 500000) :
    Host.reduceAdd (F := Ideal) x (constant (F := Ideal) S_ .f32 0x00000000#32) Facts₀.reducesTo_S500000x128_S500000_d1 Facts₀.h_S_ (ix1 e)
      = ∑ j : Fin 128, x (ix2 e j) := by
  have hR : S500000x128.Reduces [1] S500000 := by decide
  show Ideal.hostReduceAdd Facts₀.reducesTo_S500000x128_S500000_d1 x (Ideal.ofBits .f32 0x00000000#32) (ix1 e) = _
  rw [Ideal.hostReduceAdd_single Facts₀.reducesTo_S500000x128_S500000_d1 hR, Ideal.ofBits_zero_f32, zero_add]
  show ∑ k : Fin 128, x (hR.lift (ix1 e) k) = _
  refine Finset.sum_congr rfl fun k _ => ?_
  refine congrArg x (funext fun a => Fin.ext ?_)
  match a with
  | ⟨0, _⟩ => rfl
  | ⟨1, _⟩ => rfl

/-- A bias row laid under every edge, read at (e, j): the bias's entry j. -/
theorem biasRows_apply (b : FVec Ideal S128 .f32) (e : Fin 500000) (j : Fin 128) :
    biasRows (F := Ideal) b (ix2 e j) = b (ix1 j) := by
  unfold biasRows
  rw [broadcastInDim_apply ![0, 1] Facts₀.bcast_S1x128_S500000x128_0_1 _ (ix2 e j) (ix2 ⟨0, Nat.one_pos⟩ j) (fun a => by
    match a with
    | ⟨0, _⟩ => rfl
    | ⟨1, _⟩ => rfl)]
  exact broadcastInDim_apply ![1] Facts₀.bcast_S128_S1x128_1 b (ix2 ⟨0, Nat.one_pos⟩ j) (ix1 j) (fun a => by
    match a with
    | ⟨0, _⟩ => rfl)

/-- The rectifier read at an index: the weak-test rectifier of the element there. -/
theorem lrelu_apply (x : FVec Ideal S500000x128 .f32) (i : S500000x128.Idx) :
    lrelu (F := Ideal) x i = Cert.Spec.actGe (x i) := by
  unfold lrelu
  have h0 : broadcastInDim S500000x128 ![] Facts₀.bcast_S_S500000x128 (constant (F := Ideal) S_ .f32 0x00000000#32) i = (0 : EReal) := by
    rw [broadcastInDim_apply ![] Facts₀.bcast_S_S500000x128 _ i ix0 (fun a => a.elim0)]
    exact Ideal.ofBits_zero_f32
  have hs : broadcastInDim S500000x128 ![] Facts₀.bcast_S_S500000x128 (id (constant (F := Ideal) S_ .f32 0x3C23D70A#32)) i = Cert.Spec.slope := by
    rw [broadcastInDim_apply ![] Facts₀.bcast_S_S500000x128 _ i ix0 (fun a => a.elim0)]
    rfl
  show Scalar.select (Ideal.cmp .oge (x i) (broadcastInDim S500000x128 ![] Facts₀.bcast_S_S500000x128 (constant (F := Ideal) S_ .f32 0x00000000#32) i)) (x i)
      (broadcastInDim S500000x128 ![] Facts₀.bcast_S_S500000x128 (id (constant (F := Ideal) S_ .f32 0x3C23D70A#32)) i * x i) = _
  rw [h0, hs]
  unfold Cert.Spec.actGe Scalar.select Ideal.cmp
  by_cases h : (0 : EReal) ≤ x i
  · rw [if_pos h, if_pos (by simp [h])]
  · rw [if_neg h, if_neg (by simp [h])]

/-- One layer read at (e, j): the weak-test rectifier of the product of row e with the transposed weight's column j,
    plus the bias's entry j. -/
theorem layer_apply (g : FVec Ideal S500000x128 .f32) (W : FVec Ideal S128x128 .f32) (b : FVec Ideal S128 .f32)
    (e : Fin 500000) (j : Fin 128) :
    layer (F := Ideal) g W b (ix2 e j)
      = Cert.Spec.actGe ((∑ k : Fin 128, g (ix2 e k) * transpose S128x128 [1, 0] W Facts₀.transposes_S128x128_S128x128_1_0 (ix2 k j))
          + b (ix1 j)) := by
  unfold layer
  rw [lrelu_apply, addf_apply, dot_apply, biasRows_apply]

theorem etype_apply (emb dis : FVec Ideal S100000x128 .f32) (Mg Md W1 : FVec Ideal S128x128 .f32) (b1 : FVec Ideal S128 .f32)
    (W2 : FVec Ideal S128x128 .f32) (b2 : FVec Ideal S128 .f32) (noise : FVec Ideal S500000x128 .f32) (idx : IVec S500000 32)
    (e : Fin 500000) :
    etype (F := Ideal) emb dis Mg Md W1 b1 W2 b2 noise idx (ix1 e)
      = Cert.Spec.score Cert.Spec.actGe (gath (F := Ideal) emb idx) noise (gath (F := Ideal) dis idx) Mg Md
          (transpose S128x128 [1, 0] W1 Facts₀.transposes_S128x128_S128x128_1_0)
          (transpose S128x128 [1, 0] W2 Facts₀.transposes_S128x128_S128x128_1_0) b1 b2 e := by
  unfold etype
  rw [rowsum_apply]
  unfold Cert.Spec.score Cert.Spec.rowScore
  refine Finset.sum_congr rfl fun j _ => ?_
  rw [mulf_apply, dot_apply, layer_apply]
  refine congrArg (fun z => _ * Cert.Spec.actGe (z + _)) ?_
  refine Finset.sum_congr rfl fun k _ => ?_
  rw [layer_apply]
  refine congrArg (fun z => Cert.Spec.actGe (z + _) * _) ?_
  refine Finset.sum_congr rfl fun k' _ => ?_
  rw [addf_apply, dot_apply]

end Cert.ReferenceIdeal.Hand

end
-- ==== Proof.KernelRow.lean ====
/-
  What one grid point's body leaves in the output block, read at a row: row p of the 4000 x 1 block is the specification's
  score, with the strict rectifier, of row p of the three 4000 x 128 input blocks and of the whole weight and bias blocks.
  Stated for both launches (the two bodies are the same text).

  The body, entry by entry.  Every product is rows times a 128 x 128 matrix into a zero accumulator, so at (p, j) it is
  the sum over k of the row's entry k times the matrix's entry (k, j); a change of float format and a recast to the same
  shape leave every entry as it was; a bias is one row laid under all 4000 rows, so at (p, j) it adds its entry j; the
  rectifier keeps z where z > 0 and writes slope * z elsewhere.  Row p therefore runs through
      g = h Mg + n,   u = act (g Wa + ba),   w = u Wb + bb,   s = d Md,
  and the stored column at (p, 0) is the sum over the 128 lanes j of s j * act (w j): the specification's score of row p.
-/
import proofs.«120556_j4629974745849_1_alg».proof.Proof.Gen.KernelIdeal
import proofs.«120556_j4629974745849_1_alg».proof.Proof.Gen.KernelIdeal.Skeleton
import proofs.«120556_j4629974745849_1_alg».proof.Proof.Gen.KernelIdeal.Frame
import proofs.«120556_j4629974745849_1_alg».proof.Proof.Spec
import proofs.«120556_j4629974745849_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

namespace Row

/-- The printed dimension numbers are those of a plain rows-by-columns product. -/
theorem dot_eq_plain : dot_S4000x128_S128x128_S4000x128_1_0_0_1_n_n = DotDims.plain 4000 128 128 := rfl

/-- A product into the zero accumulator at (p, j): the sum over k of lhs (p, k) * rhs (k, j). -/
theorem mm_apply (lhs : FVec Ideal S4000x128 .bf16) (rhs : FVec Ideal S128x128 .bf16) (p : Fin 4000) (j : Fin 128) :
    matmul dot_S4000x128_S128x128_S4000x128_1_0_0_1_n_n none lhs rhs (constant (F := Ideal) S4000x128 .f32 0x00000000#32) (ix2 p j)
      = ∑ k : Fin 128, lhs (ix2 p k) * rhs (ix2 k j) := by
  rw [dot_eq_plain]
  exact Cert.LibPlainDot.matmul_plain_apply 4000 128 128 lhs rhs p j

/-- A bias laid under every row: (p, j) reads entry j. -/
theorem bias_apply (b : FVec Ideal S128 .f32) (p : Fin 4000) (j : Fin 128) :
    broadcastTo S4000x128 (shapeCast S1x128 b shapeCasts_S128_S1x128) broadcasts_S1x128_S4000x128 (ix2 p j) = b (ix1 j) :=
  (Cert.LibPlainDot.bcastRow_apply _ broadcasts_S1x128_S4000x128 p j).trans
    (shapeCast_a_1a_apply b shapeCasts_S128_S1x128 ⟨0, Nat.one_pos⟩ j)

/-- The rectifier as the body writes it (keep z where z > 0, else slope * z) is the specification's, entry by entry. -/
theorem act_apply (z : FVec Ideal S4000x128 .f32) (i : S4000x128.Idx) :
    select (cmpf .ogt z (broadcast S4000x128 (Scalar.ofBits (F := Ideal) .f32 0x00000000#32))) z
        (mulf (broadcast S4000x128 (Scalar.ofBits (F := Ideal) .f32 0x3C23D70A#32)) z) i
      = Cert.Spec.actGt (z i) := by
  show Scalar.select (Ideal.cmp .ogt (z i) (Ideal.ofBits .f32 0x00000000#32)) (z i) (Ideal.ofBits .f32 0x3C23D70A#32 * z i) = _
  rw [Ideal.ofBits_zero_f32]
  unfold Cert.Spec.actGt
  by_cases h : (0 : EReal) < z i
  · have hc : Ideal.cmp .ogt (z i) 0 = 1#1 := by
      show BitVec.ofBool (decide ((0 : EReal) < z i)) = 1#1
      rw [decide_eq_true h]; rfl
    rw [hc, select_one, if_pos h]
  · have hc : Ideal.cmp .ogt (z i) 0 = 0#1 := by
      show BitVec.ofBool (decide ((0 : EReal) < z i)) = 0#1
      rw [decide_eq_false h]; rfl
    rw [hc, select_zero, if_neg h]
    rfl

/-- The generator's row times its relation matrix, plus the noise row. -/
theorem gen_apply (h n : FVec Ideal S4000x128 .f32) (M : FVec Ideal S128x128 .bf16) (p : Fin 4000) (j : Fin 128) :
    addf (matmul dot_S4000x128_S128x128_S4000x128_1_0_0_1_n_n none
            (truncf .bf16 (shapeCast S4000x128 h shapeCasts_S4000x128_S4000x128) bitsLt_bf16_f32)
            (shapeCast S128x128 M shapeCasts_S128x128_S128x128) (constant (F := Ideal) S4000x128 .f32 0x00000000#32)) n (ix2 p j)
      = (∑ k : Fin 128, h (ix2 p k) * M (ix2 k j)) + n (ix2 p j) := by
  rw [shapeCast_self, shapeCast_self]
  exact congrArg (· + n (ix2 p j)) (mm_apply (truncf .bf16 h bitsLt_bf16_f32) M p j)

/-- One layer before its rectifier: the row times the weights, plus the bias. -/
theorem layer_apply (u : FVec Ideal S4000x128 .f32) (W : FVec Ideal S128x128 .bf16) (b : FVec Ideal S128 .f32) (p : Fin 4000) (j : Fin 128) :
    addf (matmul dot_S4000x128_S128x128_S4000x128_1_0_0_1_n_n none (truncf .bf16 u bitsLt_bf16_f32)
            (shapeCast S128x128 W shapeCasts_S128x128_S128x128) (constant (F := Ideal) S4000x128 .f32 0x00000000#32))
          (broadcastTo S4000x128 (shapeCast S1x128 b shapeCasts_S128_S1x128) broadcasts_S1x128_S4000x128) (ix2 p j)
      = (∑ k : Fin 128, u (ix2 p k) * W (ix2 k j)) + b (ix1 j) := by
  rw [shapeCast_self]
  exact congrArg₂ (· + ·) (mm_apply (truncf .bf16 u bitsLt_bf16_f32) W p j) (bias_apply b p j)

/-- A column of row sums read at (p, 0): the sum over the 128 lanes of row p. -/
theorem rowsum_apply (v : FVec Ideal S4000x128 .f32) (p : Fin 4000) (z : Fin 1) :
    shapeCast S4000x1 (multiReduction .add [1] S4000 v 0x00000000#32 reduces_S4000x128_S4000 (.inl rfl) rfl) shapeCasts_S4000_S4000x1 (ix2 p z)
      = ∑ j : Fin 128, v (ix2 p j) := by
  refine (shapeCast_apply _ shapeCasts_S4000_S4000x1 (ix2 p z) (ix1 p) (by
    rw [Shape.rowMajor_val_one, Shape.rowMajor_val_two]
    have hz : z.val = 0 := by have := z.isLt; omega
    show p.val = p.val * 1 + z.val
    rw [hz, Nat.mul_one, Nat.add_zero])).trans ?_
  refine (Ideal.multiReduction_add_single v 0x00000000#32 reduces_S4000x128_S4000 (.inl rfl) rfl (ix1 p)).trans ?_
  refine Finset.sum_congr rfl fun j _ => congrArg v ?_
  funext a
  match a with
  | ⟨0, _⟩ => rfl
  | ⟨1, _⟩ => rfl

/-- Launch 0: the discriminator rows and its relation matrix reach the product as they were loaded. -/
theorem pay2_eq_0 (v : Vec Ideal S4000x128 .f32) : k0_pay2 (F := Ideal) v = v := shapeCast_self v _
theorem pay3_eq_0 (v : Vec Ideal S128x128 .bf16) : k0_pay3 (F := Ideal) v = v := shapeCast_self v _

/-- Launch 0: the second layer before its rectifier, at (p, j), from row p of the generator and noise blocks. -/
theorem pay4_apply_0 (v0 v2 : Vec Ideal S4000x128 .f32) (v5 v9 : Vec Ideal S128x128 .bf16) (v11 : Vec Ideal S128 .f32)
    (v12 : Vec Ideal S128x128 .bf16) (v14 : Vec Ideal S128 .f32) (p : Fin 4000) (j : Fin 128) :
    k0_pay4 (F := Ideal) v0 v2 v5 v9 v11 v12 v14 (ix2 p j)
      = (∑ k : Fin 128, Cert.Spec.actGt ((∑ k' : Fin 128, ((∑ k'' : Fin 128, v0 (ix2 p k'') * v5 (ix2 k'' k')) + v2 (ix2 p k')) * v9 (ix2 k' k)) + v11 (ix1 k)) * v12 (ix2 k j)) + v14 (ix1 j) := by
  unfold k0_pay4
  refine (layer_apply _ v12 v14 p j).trans ?_
  refine congrArg (· + v14 (ix1 j)) (Finset.sum_congr rfl fun k _ => congrArg (· * v12 (ix2 k j)) ?_)
  refine (act_apply _ (ix2 p k)).trans (congrArg Cert.Spec.actGt ?_)
  refine (layer_apply _ v9 v11 p k).trans ?_
  refine congrArg (· + v11 (ix1 k)) (Finset.sum_congr rfl fun k' _ => congrArg (· * v9 (ix2 k' k)) ?_)
  exact gen_apply v0 v2 v5 p k'

/-- Launch 0: the stored column at (p, 0): the sum over the lanes of the discriminator product times the rectified second layer. -/
theorem pay1_apply_0 (v4 : FVec Ideal S4000x128 .f32) (v8 : FVec Ideal S128x128 .bf16) (v32 : FVec Ideal S4000x128 .f32) (p : Fin 4000) (z : Fin 1) :
    k0_pay1 (F := Ideal) v4 v8 v32 (cmpf .ogt v32 (broadcast S4000x128 (Scalar.ofBits (F := Ideal) .f32 0x00000000#32)))
        (broadcast S4000x128 (Scalar.ofBits (F := Ideal) .f32 0x3C23D70A#32)) (ix2 p z)
      = ∑ j : Fin 128, (∑ k : Fin 128, v4 (ix2 p k) * v8 (ix2 k j)) * Cert.Spec.actGt (v32 (ix2 p j)) := by
  unfold k0_pay1
  refine (rowsum_apply _ p z).trans ?_
  refine Finset.sum_congr rfl fun j _ => ?_
  exact congrArg₂ (· * ·) (mm_apply (truncf .bf16 v4 bitsLt_bf16_f32) v8 p j) (act_apply v32 (ix2 p j))

/-- Launch 1: the discriminator rows and its relation matrix reach the product as they were loaded. -/
theorem pay2_eq_1 (v : Vec Ideal S4000x128 .f32) : k1_pay2 (F := Ideal) v = v := shapeCast_self v _
theorem pay3_eq_1 (v : Vec Ideal S128x128 .bf16) : k1_pay3 (F := Ideal) v = v := shapeCast_self v _

/-- Launch 1: the second layer before its rectifier, at (p, j), from row p of the generator and noise blocks. -/
theorem pay4_apply_1 (v0 v2 : Vec Ideal S4000x128 .f32) (v5 v9 : Vec Ideal S128x128 .bf16) (v11 : Vec Ideal S128 .f32)
    (v12 : Vec Ideal S128x128 .bf16) (v14 : Vec Ideal S128 .f32) (p : Fin 4000) (j : Fin 128) :
    k1_pay4 (F := Ideal) v0 v2 v5 v9 v11 v12 v14 (ix2 p j)
      = (∑ k : Fin 128, Cert.Spec.actGt ((∑ k' : Fin 128, ((∑ k'' : Fin 128, v0 (ix2 p k'') * v5 (ix2 k'' k')) + v2 (ix2 p k')) * v9 (ix2 k' k)) + v11 (ix1 k)) * v12 (ix2 k j)) + v14 (ix1 j) := by
  unfold k1_pay4
  refine (layer_apply _ v12 v14 p j).trans ?_
  refine congrArg (· + v14 (ix1 j)) (Finset.sum_congr rfl fun k _ => congrArg (· * v12 (ix2 k j)) ?_)
  refine (act_apply _ (ix2 p k)).trans (congrArg Cert.Spec.actGt ?_)
  refine (layer_apply _ v9 v11 p k).trans ?_
  refine congrArg (· + v11 (ix1 k)) (Finset.sum_congr rfl fun k' _ => congrArg (· * v9 (ix2 k' k)) ?_)
  exact gen_apply v0 v2 v5 p k'

/-- Launch 1: the stored column at (p, 0): the sum over the lanes of the discriminator product times the rectified second layer. -/
theorem pay1_apply_1 (v4 : FVec Ideal S4000x128 .f32) (v8 : FVec Ideal S128x128 .bf16) (v32 : FVec Ideal S4000x128 .f32) (p : Fin 4000) (z : Fin 1) :
    k1_pay1 (F := Ideal) v4 v8 v32 (cmpf .ogt v32 (broadcast S4000x128 (Scalar.ofBits (F := Ideal) .f32 0x00000000#32)))
        (broadcast S4000x128 (Scalar.ofBits (F := Ideal) .f32 0x3C23D70A#32)) (ix2 p z)
      = ∑ j : Fin 128, (∑ k : Fin 128, v4 (ix2 p k) * v8 (ix2 k j)) * Cert.Spec.actGt (v32 (ix2 p j)) := by
  unfold k1_pay1
  refine (rowsum_apply _ p z).trans ?_
  refine Finset.sum_congr rfl fun j _ => ?_
  exact congrArg₂ (· * ·) (mm_apply (truncf .bf16 v4 bitsLt_bf16_f32) v8 p j) (act_apply v32 (ix2 p j))

end Row

open Row

/-- Launch 0: row p of the stored block is the score of row p of the input blocks. -/
theorem out0_9_apply (x0 x1 x2 : Vec Ideal S4000x128 .f32) (x3 x4 x5 : Vec Ideal S128x128 .bf16) (x6 : Vec Ideal S128 .f32) (x7 : Vec Ideal S128x128 .bf16) (x8 : Vec Ideal S128 .f32) (p : Fin 4000) (z : Fin 1) :
    out0_9 (F := Ideal) x0 x1 x2 x3 x4 x5 x6 x7 x8 (ix2 p z)
      = Cert.Spec.rowScore Cert.Spec.actGt (fun k => x0 (ix2 p k)) (fun k => x1 (ix2 p k)) (fun k => x2 (ix2 p k))
          (fun k j => x3 (ix2 k j)) (fun k j => x4 (ix2 k j)) (fun k j => x5 (ix2 k j)) (fun k j => x7 (ix2 k j))
          (fun j => x6 (ix1 j)) (fun j => x8 (ix1 j)) := by
  have hz : (![0, 0] : Fin 2 → Nat) = fun _ => 0 := by funext a; fin_cases a <;> rfl
  have hz1 : (![0] : Fin 1 → Nat) = fun _ => 0 := by funext a; fin_cases a; rfl
  unfold out0_9
  rw [View.canon_unit_zero hz]
  simp only [View.ld_unit_zero (S := S4000x128) hz, View.ld_unit_zero (S := S128x128) hz, View.ld_unit_zero (S := S128) hz1]
  refine (pay1_apply_0 (k0_pay2 x2) (k0_pay3 x4) (k0_pay4 x0 x1 x3 x5 x6 x7 x8) p z).trans ?_
  rw [pay2_eq_0, pay3_eq_0]
  unfold Cert.Spec.rowScore
  refine Finset.sum_congr rfl fun j _ => ?_
  exact congrArg (_ * ·) (congrArg Cert.Spec.actGt (pay4_apply_0 x0 x1 x3 x5 x6 x7 x8 p j))

/-- Launch 1: row p of the stored block is the score of row p of the input blocks. -/
theorem out1_9_apply (x0 x1 x2 : Vec Ideal S4000x128 .f32) (x3 x4 x5 : Vec Ideal S128x128 .bf16) (x6 : Vec Ideal S128 .f32) (x7 : Vec Ideal S128x128 .bf16) (x8 : Vec Ideal S128 .f32) (p : Fin 4000) (z : Fin 1) :
    out1_9 (F := Ideal) x0 x1 x2 x3 x4 x5 x6 x7 x8 (ix2 p z)
      = Cert.Spec.rowScore Cert.Spec.actGt (fun k => x0 (ix2 p k)) (fun k => x1 (ix2 p k)) (fun k => x2 (ix2 p k))
          (fun k j => x3 (ix2 k j)) (fun k j => x4 (ix2 k j)) (fun k j => x5 (ix2 k j)) (fun k j => x7 (ix2 k j))
          (fun j => x6 (ix1 j)) (fun j => x8 (ix1 j)) := by
  have hz : (![0, 0] : Fin 2 → Nat) = fun _ => 0 := by funext a; fin_cases a <;> rfl
  have hz1 : (![0] : Fin 1 → Nat) = fun _ => 0 := by funext a; fin_cases a; rfl
  unfold out1_9
  rw [View.canon_unit_zero hz]
  simp only [View.ld_unit_zero (S := S4000x128) hz, View.ld_unit_zero (S := S128x128) hz, View.ld_unit_zero (S := S128) hz1]
  refine (pay1_apply_1 (k1_pay2 x2) (k1_pay3 x4) (k1_pay4 x0 x1 x3 x5 x6 x7 x8) p z).trans ?_
  rw [pay2_eq_1, pay3_eq_1]
  unfold Cert.Spec.rowScore
  refine Finset.sum_congr rfl fun j _ => ?_
  exact congrArg (_ * ·) (congrArg Cert.Spec.actGt (pay4_apply_1 x0 x1 x3 x5 x6 x7 x8 p j))

end Cert.KernelIdeal.Hand

end
-- ==== Proof.KernelArray.lean ====
/-
  From blocks to the array: after a launch, its 500000 x 1 output array holds at row e the specification's score of edge e
  of the arrays the launch was entered with (grid point t writes rows 4000 t .. 4000 t + 3999, and the 125 points cover the
  array).  Stated at any entry contents V, for both launches.

  The argument, the same for each launch.  A window's block at grid point t sits in its array, on every axis, at
  (block index) * (block extent) + (coordinate inside the block).  The three row windows and the output window have block
  index (t, 0) and extents 4000 x 128 (4000 x 1 for the output), so row p of such a block is row 4000 t + p of the array.
  The four matrix windows and the two bias windows have block index 0 on every axis and the whole array as their block, so
  such a block is its array.  Hence what point t writes back, read at row p, is the row score of row 4000 t + p of the
  entry arrays: point t writes block t of ONE function of the array index, the score of the index's row.  Row e lies in
  the block of point e / 4000, every point writes its block back, so the array ends holding that function everywhere.
-/
import proofs.«120556_j4629974745849_1_alg».proof.Proof.Gen.KernelIdeal
import proofs.«120556_j4629974745849_1_alg».proof.Proof.Gen.KernelIdeal.Frame
import proofs.«120556_j4629974745849_1_alg».proof.Proof.Spec
import proofs.«120556_j4629974745849_1_alg».proof.Proof.KernelRow
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace KernelArray

/-! ## Launch 0 -/

/-- The row windows' and the output window's block index at point t is (t, 0); the matrix and bias windows' is 0. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-- Row p of the generator rows' block at point t is row 4000 t + p of the gathered generator rows. -/
theorem iblk0_0_apply (c : Dev nD) (t : Fin cfg0.N) (p : Fin 4000) (k : Fin 128) (e : Fin 500000)
    (he : e.val = 4000 * t.val + p.val) :
    (iblk0 (F := Ideal) V c 0 t : Vec Ideal S4000x128 .f32) (ix2 p k) = (V c main_v14 : S500000x128.Idx → EReal) (ix2 e k) := by
  unfold iblk0
  rw [View.read_apply]
  show V c main_v14 _ = V c main_v14 _
  congr 1
  funext a
  apply Fin.ext
  match a with
  | ⟨0, _⟩ =>
    show win0_0.index t 0 * 4000 + 1 * p.val = e.val
    rw [(idx0_0 t).1, he]; omega
  | ⟨1, _⟩ =>
    show win0_0.index t 1 * 128 + 1 * k.val = k.val
    rw [(idx0_0 t).2]; omega

/-- Row p of the noise block at point t is row 4000 t + p of the noise. -/
theorem iblk0_1_apply (c : Dev nD) (t : Fin cfg0.N) (p : Fin 4000) (k : Fin 128) (e : Fin 500000)
    (he : e.val = 4000 * t.val + p.val) :
    (iblk0 (F := Ideal) V c 1 t : Vec Ideal S4000x128 .f32) (ix2 p k) = (V c main_arg12 : S500000x128.Idx → EReal) (ix2 e k) := by
  unfold iblk0
  rw [View.read_apply]
  show V c main_arg12 _ = V c main_arg12 _
  congr 1
  funext a
  apply Fin.ext
  match a with
  | ⟨0, _⟩ =>
    show win0_1.index t 0 * 4000 + 1 * p.val = e.val
    rw [(idx0_1 t).1, he]; omega
  | ⟨1, _⟩ =>
    show win0_1.index t 1 * 128 + 1 * k.val = k.val
    rw [(idx0_1 t).2]; omega

/-- Row p of the discriminator rows' block at point t is row 4000 t + p of the gathered discriminator rows. -/
theorem iblk0_2_apply (c : Dev nD) (t : Fin cfg0.N) (p : Fin 4000) (k : Fin 128) (e : Fin 500000)
    (he : e.val = 4000 * t.val + p.val) :
    (iblk0 (F := Ideal) V c 2 t : Vec Ideal S4000x128 .f32) (ix2 p k) = (V c main_v21 : S500000x128.Idx → EReal) (ix2 e k) := by
  unfold iblk0
  rw [View.read_apply]
  show V c main_v21 _ = V c main_v21 _
  congr 1
  funext a
  apply Fin.ext
  match a with
  | ⟨0, _⟩ =>
    show win0_2.index t 0 * 4000 + 1 * p.val = e.val
    rw [(idx0_2 t).1, he]; omega
  | ⟨1, _⟩ =>
    show win0_2.index t 1 * 128 + 1 * k.val = k.val
    rw [(idx0_2 t).2]; omega

/-- The generator relation matrix's block is the matrix, at every point. -/
theorem iblk0_3_apply (c : Dev nD) (t : Fin cfg0.N) (k j : Fin 128) :
    (iblk0 (F := Ideal) V c 3 t : Vec Ideal S128x128 .bf16) (ix2 k j) = (V c main_v4 : S128x128.Idx → EReal) (ix2 k j) := by
  unfold iblk0
  rw [View.read_apply]
  show V c main_v4 _ = V c main_v4 _
  congr 1
  funext a
  apply Fin.ext
  match a with
  | ⟨0, _⟩ =>
    show win0_3.index t 0 * 128 + 1 * k.val = k.val
    rw [(idx0_3 t).1]; omega
  | ⟨1, _⟩ =>
    show win0_3.index t 1 * 128 + 1 * j.val = j.val
    rw [(idx0_3 t).2]; omega

/-- The discriminator relation matrix's block is the matrix, at every point. -/
theorem iblk0_4_apply (c : Dev nD) (t : Fin cfg0.N) (k j : Fin 128) :
    (iblk0 (F := Ideal) V c 4 t : Vec Ideal S128x128 .bf16) (ix2 k j) = (V c main_v6 : S128x128.Idx → EReal) (ix2 k j) := by
  unfold iblk0
  rw [View.read_apply]
  show V c main_v6 _ = V c main_v6 _
  congr 1
  funext a
  apply Fin.ext
  match a with
  | ⟨0, _⟩ =>
    show win0_4.index t 0 * 128 + 1 * k.val = k.val
    rw [(idx0_4 t).1]; omega
  | ⟨1, _⟩ =>
    show win0_4.index t 1 * 128 + 1 * j.val = j.val
    rw [(idx0_4 t).2]; omega

/-- The first layer's weight block is the weight matrix, at every point. -/
theorem iblk0_5_apply (c : Dev nD) (t : Fin cfg0.N) (k j : Fin 128) :
    (iblk0 (F := Ideal) V c 5 t : Vec Ideal S128x128 .bf16) (ix2 k j) = (V c main_v1 : S128x128.Idx → EReal) (ix2 k j) := by
  unfold iblk0
  rw [View.read_apply]
  show V c main_v1 _ = V c main_v1 _
  congr 1
  funext a
  apply Fin.ext
  match a with
  | ⟨0, _⟩ =>
    show win0_5.index t 0 * 128 + 1 * k.val = k.val
    rw [(idx0_5 t).1]; omega
  | ⟨1, _⟩ =>
    show win0_5.index t 1 * 128 + 1 * j.val = j.val
    rw [(idx0_5 t).2]; omega

/-- The first layer's bias block is the bias, at every point. -/
theorem iblk0_6_apply (c : Dev nD) (t : Fin cfg0.N) (j : Fin 128) :
    (iblk0 (F := Ideal) V c 6 t : Vec Ideal S128 .f32) (ix1 j) = (V c main_arg9 : S128.Idx → EReal) (ix1 j) := by
  unfold iblk0
  rw [View.read_apply]
  show V c main_arg9 _ = V c main_arg9 _
  congr 1
  funext a
  apply Fin.ext
  match a with
  | ⟨0, _⟩ =>
    show win0_6.index t 0 * 128 + 1 * j.val = j.val
    rw [idx0_6 t]; omega

/-- The second layer's weight block is the weight matrix, at every point. -/
theorem iblk0_7_apply (c : Dev nD) (t : Fin cfg0.N) (k j : Fin 128) :
    (iblk0 (F := Ideal) V c 7 t : Vec Ideal S128x128 .bf16) (ix2 k j) = (V c main_v3 : S128x128.Idx → EReal) (ix2 k j) := by
  unfold iblk0
  rw [View.read_apply]
  show V c main_v3 _ = V c main_v3 _
  congr 1
  funext a
  apply Fin.ext
  match a with
  | ⟨0, _⟩ =>
    show win0_7.index t 0 * 128 + 1 * k.val = k.val
    rw [(idx0_7 t).1]; omega
  | ⟨1, _⟩ =>
    show win0_7.index t 1 * 128 + 1 * j.val = j.val
    rw [(idx0_7 t).2]; omega

/-- The second layer's bias block is the bias, at every point. -/
theorem iblk0_8_apply (c : Dev nD) (t : Fin cfg0.N) (j : Fin 128) :
    (iblk0 (F := Ideal) V c 8 t : Vec Ideal S128 .f32) (ix1 j) = (V c main_arg11 : S128.Idx → EReal) (ix1 j) := by
  unfold iblk0
  rw [View.read_apply]
  show V c main_arg11 _ = V c main_arg11 _
  congr 1
  funext a
  apply Fin.ext
  match a with
  | ⟨0, _⟩ =>
    show win0_8.index t 0 * 128 + 1 * j.val = j.val
    rw [idx0_8 t]; omega

/-- The one function of the output array's index that every point writes its block of: the score of the index's row. -/
def rowScores0 (c : Dev nD) : S500000x1.Idx → EReal := fun i =>
  Cert.Spec.score Cert.Spec.actGt (V c main_v14) (V c main_arg12) (V c main_v21) (V c main_v4) (V c main_v6) (V c main_v1) (V c main_v3) (V c main_arg9) (V c main_arg11) (i 0)

/-- What the body leaves at row p of the output block at point t is the score of row 4000 t + p of the entry arrays. -/
theorem point0 (c : Dev nD) (t : Fin cfg0.N) (p : Fin 4000) (z : Fin 1) (e : Fin 500000) (he : e.val = 4000 * t.val + p.val) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p z)
      = Cert.Spec.score Cert.Spec.actGt (V c main_v14) (V c main_arg12) (V c main_v21) (V c main_v4) (V c main_v6) (V c main_v1) (V c main_v3) (V c main_arg9) (V c main_arg11) e := by
  refine (out0_9_apply (iblk0 V c 0 t) (iblk0 V c 1 t) (iblk0 V c 2 t) (iblk0 V c 3 t) (iblk0 V c 4 t) (iblk0 V c 5 t) (iblk0 V c 6 t) (iblk0 V c 7 t) (iblk0 V c 8 t) p z).trans ?_
  unfold Cert.Spec.score
  congr 1
  · funext k; exact iblk0_0_apply V c t p k e he
  · funext k; exact iblk0_1_apply V c t p k e he
  · funext k; exact iblk0_2_apply V c t p k e he
  · funext k j; exact iblk0_3_apply V c t k j
  · funext k j; exact iblk0_4_apply V c t k j
  · funext k j; exact iblk0_5_apply V c t k j
  · funext k j; exact iblk0_7_apply V c t k j
  · funext j; exact iblk0_6_apply V c t j
  · funext j; exact iblk0_8_apply V c t j

/-- What point t writes back is block t of the row scores. -/
theorem flushed0_eq (c : Dev nD) (t : Fin cfg0.N) :
    (dat0 (F := Ideal) V c).flushed 9 t = ((cfg0.win 9).blk t).view.read (Elt Ideal) (rowScores0 V c) := by
  show (cfg0.win 9).cut (grid0.coords t) ((dat0 V c).after 9 t) = _
  rw [after0_9]
  funext y
  rw [View.read_apply]
  have hy : (cfg0.win 9).xinj (grid0.coords t) y = ix2 (n0 := 4000) (n1 := 1) (y 0) (y 1) := by
    funext a; match a with | ⟨0, _⟩ => rfl | ⟨1, _⟩ => rfl
  have he : ((((cfg0.win 9).blk t).view.emb y) 0).val = 4000 * t.val + (y 0).val := by
    show win0_9.index t 0 * 4000 + 1 * (y 0).val = _
    rw [(idx0_9 t).1]; omega
  show out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) ((cfg0.win 9).xinj (grid0.coords t) y) = _
  rw [hy]
  exact point0 V c t (y 0) (y 1) _ he

/-- Row r of the output array lies in the block of point r / 4000, and every point writes its block back. -/
theorem cover0 (c : Dev nD) (i : ((cfg0.win 9).arr.view.loc (c.tc : Thread nD τ)).2.ty.Idx) :
    ∃ t : Fin cfg0.N, (cfg0.win 9).flush t = true ∧ i ∈ ((cfg0.win 9).blk t).view.set := by
  have h0 : (i 0).val < 500000 := (i 0).isLt
  have h1 : (i 1).val < 1 := (i 1).isLt
  have hN : cfg0.N = 125 := N_0
  obtain ⟨t, ht⟩ : ∃ t : Fin cfg0.N, t.val = (i 0).val / 4000 := ⟨⟨(i 0).val / 4000, by rw [hN]; omega⟩, rfl⟩
  refine ⟨t, flush0_9 t, ?_⟩
  show i ∈ ((View.whole main_v22).slice (win0_9.rect t)).set
  rw [View.set_slice_whole, Rect.mem_set_unit]
  intro a
  match a with
  | ⟨0, _⟩ =>
    show win0_9.index t 0 * 4000 ≤ (i 0).val ∧ (i 0).val < win0_9.index t 0 * 4000 + 4000
    rw [(idx0_9 t).1]; omega
  | ⟨1, _⟩ =>
    show win0_9.index t 1 * 1 ≤ (i 1).val ∧ (i 1).val < win0_9.index t 1 * 1 + 1
    rw [(idx0_9 t).2]; omega

/-- So the output array ends holding the row scores. -/
theorem final0 (c : Dev nD) : (dat0 (F := Ideal) V c).arrAt 9 cfg0.N = rowScores0 V c :=
  (dat0 V c).arrAt_eq_of_cover 9 (rowScores0 V c) (fun t _ => flushed0_eq V c t) (cover0 c)

/-! ## Launch 1 -/

/-- The row windows' and the output window's block index at point t is (t, 0); the matrix and bias windows' is 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 1) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-- Row p of the generator rows' block at point t is row 4000 t + p of the gathered generator rows. -/
theorem iblk1_0_apply (c : Dev nD) (t : Fin cfg1.N) (p : Fin 4000) (k : Fin 128) (e : Fin 500000)
    (he : e.val = 4000 * t.val + p.val) :
    (iblk1 (F := Ideal) V c 0 t : Vec Ideal S4000x128 .f32) (ix2 p k) = (V c main_v30 : S500000x128.Idx → EReal) (ix2 e k) := by
  unfold iblk1
  rw [View.read_apply]
  show V c main_v30 _ = V c main_v30 _
  congr 1
  funext a
  apply Fin.ext
  match a with
  | ⟨0, _⟩ =>
    show win1_0.index t 0 * 4000 + 1 * p.val = e.val
    rw [(idx1_0 t).1, he]; omega
  | ⟨1, _⟩ =>
    show win1_0.index t 1 * 128 + 1 * k.val = k.val
    rw [(idx1_0 t).2]; omega

/-- Row p of the noise block at point t is row 4000 t + p of the noise. -/
theorem iblk1_1_apply (c : Dev nD) (t : Fin cfg1.N) (p : Fin 4000) (k : Fin 128) (e : Fin 500000)
    (he : e.val = 4000 * t.val + p.val) :
    (iblk1 (F := Ideal) V c 1 t : Vec Ideal S4000x128 .f32) (ix2 p k) = (V c main_arg13 : S500000x128.Idx → EReal) (ix2 e k) := by
  unfold iblk1
  rw [View.read_apply]
  show V c main_arg13 _ = V c main_arg13 _
  congr 1
  funext a
  apply Fin.ext
  match a with
  | ⟨0, _⟩ =>
    show win1_1.index t 0 * 4000 + 1 * p.val = e.val
    rw [(idx1_1 t).1, he]; omega
  | ⟨1, _⟩ =>
    show win1_1.index t 1 * 128 + 1 * k.val = k.val
    rw [(idx1_1 t).2]; omega

/-- Row p of the discriminator rows' block at point t is row 4000 t + p of the gathered discriminator rows. -/
theorem iblk1_2_apply (c : Dev nD) (t : Fin cfg1.N) (p : Fin 4000) (k : Fin 128) (e : Fin 500000)
    (he : e.val = 4000 * t.val + p.val) :
    (iblk1 (F := Ideal) V c 2 t : Vec Ideal S4000x128 .f32) (ix2 p k) = (V c main_v37 : S500000x128.Idx → EReal) (ix2 e k) := by
  unfold iblk1
  rw [View.read_apply]
  show V c main_v37 _ = V c main_v37 _
  congr 1
  funext a
  apply Fin.ext
  match a with
  | ⟨0, _⟩ =>
    show win1_2.index t 0 * 4000 + 1 * p.val = e.val
    rw [(idx1_2 t).1, he]; omega
  | ⟨1, _⟩ =>
    show win1_2.index t 1 * 128 + 1 * k.val = k.val
    rw [(idx1_2 t).2]; omega

/-- The generator relation matrix's block is the matrix, at every point. -/
theorem iblk1_3_apply (c : Dev nD) (t : Fin cfg1.N) (k j : Fin 128) :
    (iblk1 (F := Ideal) V c 3 t : Vec Ideal S128x128 .bf16) (ix2 k j) = (V c main_v5 : S128x128.Idx → EReal) (ix2 k j) := by
  unfold iblk1
  rw [View.read_apply]
  show V c main_v5 _ = V c main_v5 _
  congr 1
  funext a
  apply Fin.ext
  match a with
  | ⟨0, _⟩ =>
    show win1_3.index t 0 * 128 + 1 * k.val = k.val
    rw [(idx1_3 t).1]; omega
  | ⟨1, _⟩ =>
    show win1_3.index t 1 * 128 + 1 * j.val = j.val
    rw [(idx1_3 t).2]; omega

/-- The discriminator relation matrix's block is the matrix, at every point. -/
theorem iblk1_4_apply (c : Dev nD) (t : Fin cfg1.N) (k j : Fin 128) :
    (iblk1 (F := Ideal) V c 4 t : Vec Ideal S128x128 .bf16) (ix2 k j) = (V c main_v7 : S128x128.Idx → EReal) (ix2 k j) := by
  unfold iblk1
  rw [View.read_apply]
  show V c main_v7 _ = V c main_v7 _
  congr 1
  funext a
  apply Fin.ext
  match a with
  | ⟨0, _⟩ =>
    show win1_4.index t 0 * 128 + 1 * k.val = k.val
    rw [(idx1_4 t).1]; omega
  | ⟨1, _⟩ =>
    show win1_4.index t 1 * 128 + 1 * j.val = j.val
    rw [(idx1_4 t).2]; omega

/-- The first layer's weight block is the weight matrix, at every point. -/
theorem iblk1_5_apply (c : Dev nD) (t : Fin cfg1.N) (k j : Fin 128) :
    (iblk1 (F := Ideal) V c 5 t : Vec Ideal S128x128 .bf16) (ix2 k j) = (V c main_v1 : S128x128.Idx → EReal) (ix2 k j) := by
  unfold iblk1
  rw [View.read_apply]
  show V c main_v1 _ = V c main_v1 _
  congr 1
  funext a
  apply Fin.ext
  match a with
  | ⟨0, _⟩ =>
    show win1_5.index t 0 * 128 + 1 * k.val = k.val
    rw [(idx1_5 t).1]; omega
  | ⟨1, _⟩ =>
    show win1_5.index t 1 * 128 + 1 * j.val = j.val
    rw [(idx1_5 t).2]; omega

/-- The first layer's bias block is the bias, at every point. -/
theorem iblk1_6_apply (c : Dev nD) (t : Fin cfg1.N) (j : Fin 128) :
    (iblk1 (F := Ideal) V c 6 t : Vec Ideal S128 .f32) (ix1 j) = (V c main_arg9 : S128.Idx → EReal) (ix1 j) := by
  unfold iblk1
  rw [View.read_apply]
  show V c main_arg9 _ = V c main_arg9 _
  congr 1
  funext a
  apply Fin.ext
  match a with
  | ⟨0, _⟩ =>
    show win1_6.index t 0 * 128 + 1 * j.val = j.val
    rw [idx1_6 t]; omega

/-- The second layer's weight block is the weight matrix, at every point. -/
theorem iblk1_7_apply (c : Dev nD) (t : Fin cfg1.N) (k j : Fin 128) :
    (iblk1 (F := Ideal) V c 7 t : Vec Ideal S128x128 .bf16) (ix2 k j) = (V c main_v3 : S128x128.Idx → EReal) (ix2 k j) := by
  unfold iblk1
  rw [View.read_apply]
  show V c main_v3 _ = V c main_v3 _
  congr 1
  funext a
  apply Fin.ext
  match a with
  | ⟨0, _⟩ =>
    show win1_7.index t 0 * 128 + 1 * k.val = k.val
    rw [(idx1_7 t).1]; omega
  | ⟨1, _⟩ =>
    show win1_7.index t 1 * 128 + 1 * j.val = j.val
    rw [(idx1_7 t).2]; omega

/-- The second layer's bias block is the bias, at every point. -/
theorem iblk1_8_apply (c : Dev nD) (t : Fin cfg1.N) (j : Fin 128) :
    (iblk1 (F := Ideal) V c 8 t : Vec Ideal S128 .f32) (ix1 j) = (V c main_arg11 : S128.Idx → EReal) (ix1 j) := by
  unfold iblk1
  rw [View.read_apply]
  show V c main_arg11 _ = V c main_arg11 _
  congr 1
  funext a
  apply Fin.ext
  match a with
  | ⟨0, _⟩ =>
    show win1_8.index t 0 * 128 + 1 * j.val = j.val
    rw [idx1_8 t]; omega

/-- The one function of the output array's index that every point writes its block of: the score of the index's row. -/
def rowScores1 (c : Dev nD) : S500000x1.Idx → EReal := fun i =>
  Cert.Spec.score Cert.Spec.actGt (V c main_v30) (V c main_arg13) (V c main_v37) (V c main_v5) (V c main_v7) (V c main_v1) (V c main_v3) (V c main_arg9) (V c main_arg11) (i 0)

/-- What the body leaves at row p of the output block at point t is the score of row 4000 t + p of the entry arrays. -/
theorem point1 (c : Dev nD) (t : Fin cfg1.N) (p : Fin 4000) (z : Fin 1) (e : Fin 500000) (he : e.val = 4000 * t.val + p.val) :
    out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 p z)
      = Cert.Spec.score Cert.Spec.actGt (V c main_v30) (V c main_arg13) (V c main_v37) (V c main_v5) (V c main_v7) (V c main_v1) (V c main_v3) (V c main_arg9) (V c main_arg11) e := by
  refine (out1_9_apply (iblk1 V c 0 t) (iblk1 V c 1 t) (iblk1 V c 2 t) (iblk1 V c 3 t) (iblk1 V c 4 t) (iblk1 V c 5 t) (iblk1 V c 6 t) (iblk1 V c 7 t) (iblk1 V c 8 t) p z).trans ?_
  unfold Cert.Spec.score
  congr 1
  · funext k; exact iblk1_0_apply V c t p k e he
  · funext k; exact iblk1_1_apply V c t p k e he
  · funext k; exact iblk1_2_apply V c t p k e he
  · funext k j; exact iblk1_3_apply V c t k j
  · funext k j; exact iblk1_4_apply V c t k j
  · funext k j; exact iblk1_5_apply V c t k j
  · funext k j; exact iblk1_7_apply V c t k j
  · funext j; exact iblk1_6_apply V c t j
  · funext j; exact iblk1_8_apply V c t j

/-- What point t writes back is block t of the row scores. -/
theorem flushed1_eq (c : Dev nD) (t : Fin cfg1.N) :
    (dat1 (F := Ideal) V c).flushed 9 t = ((cfg1.win 9).blk t).view.read (Elt Ideal) (rowScores1 V c) := by
  show (cfg1.win 9).cut (grid1.coords t) ((dat1 V c).after 9 t) = _
  rw [after1_9]
  funext y
  rw [View.read_apply]
  have hy : (cfg1.win 9).xinj (grid1.coords t) y = ix2 (n0 := 4000) (n1 := 1) (y 0) (y 1) := by
    funext a; match a with | ⟨0, _⟩ => rfl | ⟨1, _⟩ => rfl
  have he : ((((cfg1.win 9).blk t).view.emb y) 0).val = 4000 * t.val + (y 0).val := by
    show win1_9.index t 0 * 4000 + 1 * (y 0).val = _
    rw [(idx1_9 t).1]; omega
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) ((cfg1.win 9).xinj (grid1.coords t) y) = _
  rw [hy]
  exact point1 V c t (y 0) (y 1) _ he

/-- Row r of the output array lies in the block of point r / 4000, and every point writes its block back. -/
theorem cover1 (c : Dev nD) (i : ((cfg1.win 9).arr.view.loc (c.tc : Thread nD τ)).2.ty.Idx) :
    ∃ t : Fin cfg1.N, (cfg1.win 9).flush t = true ∧ i ∈ ((cfg1.win 9).blk t).view.set := by
  have h0 : (i 0).val < 500000 := (i 0).isLt
  have h1 : (i 1).val < 1 := (i 1).isLt
  have hN : cfg1.N = 125 := N_1
  obtain ⟨t, ht⟩ : ∃ t : Fin cfg1.N, t.val = (i 0).val / 4000 := ⟨⟨(i 0).val / 4000, by rw [hN]; omega⟩, rfl⟩
  refine ⟨t, flush1_9 t, ?_⟩
  show i ∈ ((View.whole main_v38).slice (win1_9.rect t)).set
  rw [View.set_slice_whole, Rect.mem_set_unit]
  intro a
  match a with
  | ⟨0, _⟩ =>
    show win1_9.index t 0 * 4000 ≤ (i 0).val ∧ (i 0).val < win1_9.index t 0 * 4000 + 4000
    rw [(idx1_9 t).1]; omega
  | ⟨1, _⟩ =>
    show win1_9.index t 1 * 1 ≤ (i 1).val ∧ (i 1).val < win1_9.index t 1 * 1 + 1
    rw [(idx1_9 t).2]; omega

/-- So the output array ends holding the row scores. -/
theorem final1 (c : Dev nD) : (dat1 (F := Ideal) V c).arrAt 9 cfg1.N = rowScores1 V c :=
  (dat1 V c).arrAt_eq_of_cover 9 (rowScores1 V c) (fun t _ => flushed1_eq V c t) (cover1 c)

end KernelArray

/-! ## The two arrays after their launches -/

theorem arr0 (c : Dev nD) (e : Fin 500000) (z : Fin 1) :
    ((dat0 (F := Ideal) V c).arrAt 9 cfg0.N : S500000x1.Idx → EReal) (ix2 e z)
      = Cert.Spec.score Cert.Spec.actGt (V c main_v14) (V c main_arg12) (V c main_v21) (V c main_v4) (V c main_v6) (V c main_v1) (V c main_v3) (V c main_arg9) (V c main_arg11) e := by
  rw [KernelArray.final0 V c]
  rfl

theorem arr1 (c : Dev nD) (e : Fin 500000) (z : Fin 1) :
    ((dat1 (F := Ideal) V c).arrAt 9 cfg1.N : S500000x1.Idx → EReal) (ix2 e z)
      = Cert.Spec.score Cert.Spec.actGt (V c main_v30) (V c main_arg13) (V c main_v37) (V c main_v5) (V c main_v7) (V c main_v1) (V c main_v3) (V c main_arg9) (V c main_arg11) e := by
  rw [KernelArray.final1 V c]
  rfl

end Cert.KernelIdeal.Hand

end
-- ==== Proof.KernelFold.lean ====
/-
  The contents of the buffers at the boundaries of main's five segments, read back to the launch memory.

  Before the first launch the host has gathered the generator and discriminator rows of the first edge type, transposed
  the two layer weights and changed the six matrices' float format; between the launches it flattens the first launch's
  500000 x 1 output and gathers the second edge type's rows; after the second launch it flattens that output and lays
  the two score vectors end to end.  No argument is written, and a launch leaves every array it only reads as it was.
-/
import proofs.«120556_j4629974745849_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The rows of a table gathered at an index vector, a negative index counted from the table's end. -/
def gath (x : FVec F S100000x128 .f32) (idx : IVec S500000 32) : FVec F S500000x128 .f32 :=
  Host.gather gather_S100000x128_S500000x1_S500000x128_1_0_n_n_0_1_1128 x
    (broadcastInDim S500000x1 ![0] Facts₀.bcast_S500000_S500000x1_0
      (select (cmpi .slt idx (broadcastInDim S500000 ![] Facts₀.bcast_S_S500000 (constantI S_ 32 0#32)))
        (addi idx (broadcastInDim S500000 ![] Facts₀.bcast_S_S500000 (constantI S_ 32 100000#32))) idx))

/-! ## Entering the first launch -/

set_option maxHeartbeats 4000000 in
theorem W1_v14 (c : Dev nD) : W1 m ρ c (Proc.devRef .tc main_v14) = gath (m ((c : Thread nD τ).loc main_arg0)) (m ((c : Thread nD τ).loc main_arg14)) := by
  show StableHlo.after hostOps0 (W0 m ρ c) (Proc.devRef .tc main_v14) = _
  after_results_simp
  rfl
set_option maxHeartbeats 4000000 in
theorem W1_v21 (c : Dev nD) : W1 m ρ c (Proc.devRef .tc main_v21) = gath (m ((c : Thread nD τ).loc main_arg2)) (m ((c : Thread nD τ).loc main_arg14)) := by
  show StableHlo.after hostOps0 (W0 m ρ c) (Proc.devRef .tc main_v21) = _
  after_results_simp
  rfl
set_option maxHeartbeats 4000000 in
theorem W1_v4 (c : Dev nD) : W1 m ρ c (Proc.devRef .tc main_v4) = truncf .bf16 (m ((c : Thread nD τ).loc main_arg4)) Facts₀.bitsLt_bf16_f32 := by
  show StableHlo.after hostOps0 (W0 m ρ c) (Proc.devRef .tc main_v4) = _
  after_results_simp
set_option maxHeartbeats 4000000 in
theorem W1_v5 (c : Dev nD) : W1 m ρ c (Proc.devRef .tc main_v5) = truncf .bf16 (m ((c : Thread nD τ).loc main_arg5)) Facts₀.bitsLt_bf16_f32 := by
  show StableHlo.after hostOps0 (W0 m ρ c) (Proc.devRef .tc main_v5) = _
  after_results_simp
set_option maxHeartbeats 4000000 in
theorem W1_v6 (c : Dev nD) : W1 m ρ c (Proc.devRef .tc main_v6) = truncf .bf16 (m ((c : Thread nD τ).loc main_arg6)) Facts₀.bitsLt_bf16_f32 := by
  show StableHlo.after hostOps0 (W0 m ρ c) (Proc.devRef .tc main_v6) = _
  after_results_simp
set_option maxHeartbeats 4000000 in
theorem W1_v7 (c : Dev nD) : W1 m ρ c (Proc.devRef .tc main_v7) = truncf .bf16 (m ((c : Thread nD τ).loc main_arg7)) Facts₀.bitsLt_bf16_f32 := by
  show StableHlo.after hostOps0 (W0 m ρ c) (Proc.devRef .tc main_v7) = _
  after_results_simp
set_option maxHeartbeats 4000000 in
theorem W1_v1 (c : Dev nD) : W1 m ρ c (Proc.devRef .tc main_v1) = truncf .bf16 (transpose S128x128 [1, 0] (m ((c : Thread nD τ).loc main_arg8)) Facts₀.transposes_S128x128_S128x128_1_0) Facts₀.bitsLt_bf16_f32 := by
  show StableHlo.after hostOps0 (W0 m ρ c) (Proc.devRef .tc main_v1) = _
  after_results_simp
set_option maxHeartbeats 4000000 in
theorem W1_v3 (c : Dev nD) : W1 m ρ c (Proc.devRef .tc main_v3) = truncf .bf16 (transpose S128x128 [1, 0] (m ((c : Thread nD τ).loc main_arg10)) Facts₀.transposes_S128x128_S128x128_1_0) Facts₀.bitsLt_bf16_f32 := by
  show StableHlo.after hostOps0 (W0 m ρ c) (Proc.devRef .tc main_v3) = _
  after_results_simp
set_option maxHeartbeats 4000000 in
theorem W1_arg1 (c : Dev nD) : W1 m ρ c (Proc.devRef .tc main_arg1) = (m ((c : Thread nD τ).loc main_arg1)) := by
  show StableHlo.after hostOps0 (W0 m ρ c) (Proc.devRef .tc main_arg1) = _
  after_results_simp
set_option maxHeartbeats 4000000 in
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp
set_option maxHeartbeats 4000000 in
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp
set_option maxHeartbeats 4000000 in
theorem W1_arg11 (c : Dev nD) : W1 m ρ c (Proc.devRef .tc main_arg11) = (m ((c : Thread nD τ).loc main_arg11)) := by
  show StableHlo.after hostOps0 (W0 m ρ c) (Proc.devRef .tc main_arg11) = _
  after_results_simp
set_option maxHeartbeats 4000000 in
theorem W1_arg12 (c : Dev nD) : W1 m ρ c (Proc.devRef .tc main_arg12) = (m ((c : Thread nD τ).loc main_arg12)) := by
  show StableHlo.after hostOps0 (W0 m ρ c) (Proc.devRef .tc main_arg12) = _
  after_results_simp
set_option maxHeartbeats 4000000 in
theorem W1_arg13 (c : Dev nD) : W1 m ρ c (Proc.devRef .tc main_arg13) = (m ((c : Thread nD τ).loc main_arg13)) := by
  show StableHlo.after hostOps0 (W0 m ρ c) (Proc.devRef .tc main_arg13) = _
  after_results_simp
set_option maxHeartbeats 4000000 in
theorem W1_arg15 (c : Dev nD) : W1 m ρ c (Proc.devRef .tc main_arg15) = (m ((c : Thread nD τ).loc main_arg15)) := by
  show StableHlo.after hostOps0 (W0 m ρ c) (Proc.devRef .tc main_arg15) = _
  after_results_simp

/-! ## Leaving the first launch: an array it does not own, or only reads, is as it was entered -/

theorem W2_arg1 (c : Dev nD) : W2 m ρ c (Proc.devRef .tc main_arg1) = W1 m ρ c (Proc.devRef .tc main_arg1) :=
  W2_of_ne m ρ c main_arg1 (by decide)
theorem W2_arg3 (c : Dev nD) : W2 m ρ c (Proc.devRef .tc main_arg3) = W1 m ρ c (Proc.devRef .tc main_arg3) :=
  W2_of_ne m ρ c main_arg3 (by decide)
theorem W2_arg13 (c : Dev nD) : W2 m ρ c (Proc.devRef .tc main_arg13) = W1 m ρ c (Proc.devRef .tc main_arg13) :=
  W2_of_ne m ρ c main_arg13 (by decide)
theorem W2_arg15 (c : Dev nD) : W2 m ρ c (Proc.devRef .tc main_arg15) = W1 m ρ c (Proc.devRef .tc main_arg15) :=
  W2_of_ne m ρ c main_arg15 (by decide)
theorem W2_v5 (c : Dev nD) : W2 m ρ c (Proc.devRef .tc main_v5) = W1 m ρ c (Proc.devRef .tc main_v5) :=
  W2_of_ne m ρ c main_v5 (by decide)
theorem W2_v7 (c : Dev nD) : W2 m ρ c (Proc.devRef .tc main_v7) = W1 m ρ c (Proc.devRef .tc main_v7) :=
  W2_of_ne m ρ c main_v7 (by decide)
theorem W2_v1 (c : Dev nD) : W2 m ρ c (Proc.devRef .tc main_v1) = W1 m ρ c (Proc.devRef .tc main_v1) :=
  (W2_arr m ρ c 5).trans (((dat0 (V1 m ρ) c).arrAt_in 5 rfl _).trans (A_eq0 (V1 m ρ) c 5))
theorem W2_arg9 (c : Dev nD) : W2 m ρ c (Proc.devRef .tc main_arg9) = W1 m ρ c (Proc.devRef .tc main_arg9) :=
  (W2_arr m ρ c 6).trans (((dat0 (V1 m ρ) c).arrAt_in 6 rfl _).trans (A_eq0 (V1 m ρ) c 6))
theorem W2_v3 (c : Dev nD) : W2 m ρ c (Proc.devRef .tc main_v3) = W1 m ρ c (Proc.devRef .tc main_v3) :=
  (W2_arr m ρ c 7).trans (((dat0 (V1 m ρ) c).arrAt_in 7 rfl _).trans (A_eq0 (V1 m ρ) c 7))
theorem W2_arg11 (c : Dev nD) : W2 m ρ c (Proc.devRef .tc main_arg11) = W1 m ρ c (Proc.devRef .tc main_arg11) :=
  (W2_arr m ρ c 8).trans (((dat0 (V1 m ρ) c).arrAt_in 8 rfl _).trans (A_eq0 (V1 m ρ) c 8))
theorem W2_v22 (c : Dev nD) : W2 m ρ c (Proc.devRef .tc main_v22) = (dat0 (V1 m ρ) c).arrAt 9 cfg0.N := W2_arr m ρ c 9

/-! ## Entering the second launch -/

theorem W3_v23 (c : Dev nD) : W3 m ρ c (Proc.devRef .tc main_v23)
    = shapeCast S500000 ((dat0 (V1 m ρ) c).arrAt 9 cfg0.N) Facts₀.shapeCasts_S500000x1_S500000 := by
  show StableHlo.after hostOps1 (W2 m ρ c) (Proc.devRef .tc main_v23) = _
  after_results_simp
  rw [W2_v22]
  rfl
theorem W3_v30 (c : Dev nD) : W3 m ρ c (Proc.devRef .tc main_v30) = gath (m ((c : Thread nD τ).loc main_arg1)) (m ((c : Thread nD τ).loc main_arg15)) := by
  show StableHlo.after hostOps1 (W2 m ρ c) (Proc.devRef .tc main_v30) = _
  after_results_simp
  rw [W2_arg1, W2_arg15, W1_arg1, W1_arg15]
  rfl
theorem W3_v37 (c : Dev nD) : W3 m ρ c (Proc.devRef .tc main_v37) = gath (m ((c : Thread nD τ).loc main_arg3)) (m ((c : Thread nD τ).loc main_arg15)) := by
  show StableHlo.after hostOps1 (W2 m ρ c) (Proc.devRef .tc main_v37) = _
  after_results_simp
  rw [W2_arg3, W2_arg15, W1_arg3, W1_arg15]
  rfl
theorem W3_arg13 (c : Dev nD) : W3 m ρ c (Proc.devRef .tc main_arg13) = (m ((c : Thread nD τ).loc main_arg13)) := by
  show StableHlo.after hostOps1 (W2 m ρ c) (Proc.devRef .tc main_arg13) = _
  after_results_simp
  rw [W2_arg13, W1_arg13]
theorem W3_arg9 (c : Dev nD) : W3 m ρ c (Proc.devRef .tc main_arg9) = (m ((c : Thread nD τ).loc main_arg9)) := by
  show StableHlo.after hostOps1 (W2 m ρ c) (Proc.devRef .tc main_arg9) = _
  after_results_simp
  rw [W2_arg9, W1_arg9]
theorem W3_arg11 (c : Dev nD) : W3 m ρ c (Proc.devRef .tc main_arg11) = (m ((c : Thread nD τ).loc main_arg11)) := by
  show StableHlo.after hostOps1 (W2 m ρ c) (Proc.devRef .tc main_arg11) = _
  after_results_simp
  rw [W2_arg11, W1_arg11]
theorem W3_v5 (c : Dev nD) : W3 m ρ c (Proc.devRef .tc main_v5) = truncf .bf16 (m ((c : Thread nD τ).loc main_arg5)) Facts₀.bitsLt_bf16_f32 := by
  show StableHlo.after hostOps1 (W2 m ρ c) (Proc.devRef .tc main_v5) = _
  after_results_simp
  rw [W2_v5, W1_v5]
theorem W3_v7 (c : Dev nD) : W3 m ρ c (Proc.devRef .tc main_v7) = truncf .bf16 (m ((c : Thread nD τ).loc main_arg7)) Facts₀.bitsLt_bf16_f32 := by
  show StableHlo.after hostOps1 (W2 m ρ c) (Proc.devRef .tc main_v7) = _
  after_results_simp
  rw [W2_v7, W1_v7]
theorem W3_v1 (c : Dev nD) : W3 m ρ c (Proc.devRef .tc main_v1) = truncf .bf16 (transpose S128x128 [1, 0] (m ((c : Thread nD τ).loc main_arg8)) Facts₀.transposes_S128x128_S128x128_1_0) Facts₀.bitsLt_bf16_f32 := by
  show StableHlo.after hostOps1 (W2 m ρ c) (Proc.devRef .tc main_v1) = _
  after_results_simp
  rw [W2_v1, W1_v1]
theorem W3_v3 (c : Dev nD) : W3 m ρ c (Proc.devRef .tc main_v3) = truncf .bf16 (transpose S128x128 [1, 0] (m ((c : Thread nD τ).loc main_arg10)) Facts₀.transposes_S128x128_S128x128_1_0) Facts₀.bitsLt_bf16_f32 := by
  show StableHlo.after hostOps1 (W2 m ρ c) (Proc.devRef .tc main_v3) = _
  after_results_simp
  rw [W2_v3, W1_v3]

/-! ## After the second launch -/

theorem W4_v38 (c : Dev nD) : W4 m ρ c (Proc.devRef .tc main_v38) = (dat1 (V3 m ρ) c).arrAt 9 cfg1.N := W4_arr m ρ c 9
theorem W4_v23 (c : Dev nD) : W4 m ρ c (Proc.devRef .tc main_v23) = W3 m ρ c (Proc.devRef .tc main_v23) :=
  W4_of_ne m ρ c main_v23 (by decide)

/-- The result buffer after the last host stretch: the two launches' output arrays, each flattened, end to end. -/
theorem W5_v40 (c : Dev nD) : W5 m ρ c (Proc.devRef .tc main_v40)
    = concatenate S1000000 0
        [⟨S500000, shapeCast S500000 ((dat0 (V1 m ρ) c).arrAt 9 cfg0.N) Facts₀.shapeCasts_S500000x1_S500000⟩,
         ⟨S500000, shapeCast S500000 ((dat1 (V3 m ρ) c).arrAt 9 cfg1.N) Facts₀.shapeCasts_S500000x1_S500000⟩]
        Facts₀.concatenates_S500000_S500000_S1000000_d0 := by
  show StableHlo.after hostOps2 (W4 m ρ c) (Proc.devRef .tc main_v40) = _
  after_results
  rw [W4_v23, W3_v23, W4_v38]
  rfl

end Cert.KernelIdeal.Hand

end
-- ==== Proof.Bridge.lean ====
/-
  The two results are one array.

  The kernel's result is its two launches' 500000 x 1 output arrays, each flattened, end to end; launch output row e is
  the specification's score of edge e with the strict rectifier.  The reference's result is its two score vectors end to
  end; entry e is the specification's score with the weak rectifier.  The two rectifiers are one function, a change of
  float format is the identity on the extended reals, and both programs gather the same rows and transpose the same
  weights: so from memories that agree on the arguments the results agree entry by entry.
-/
import proofs.«120556_j4629974745849_1_alg».proof.Proof.Gen.KernelIdeal.Frame
import proofs.«120556_j4629974745849_1_alg».proof.Proof.Gen.ReferenceIdeal
import proofs.«120556_j4629974745849_1_alg».proof.Proof.Spec
import proofs.«120556_j4629974745849_1_alg».proof.Proof.RefTerm
import proofs.«120556_j4629974745849_1_alg».proof.Proof.RefValue
import proofs.«120556_j4629974745849_1_alg».proof.Proof.KernelArray
import proofs.«120556_j4629974745849_1_alg».proof.Proof.KernelFold
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.ValueIdx Idealize.SL.Sem

/-- A 500000 x 1 array flattened, read at e: the array's row e. -/
theorem flat_apply (X : (⟨2, ![500000, 1]⟩ : Shape).Idx → EReal)
    (h : (⟨2, ![500000, 1]⟩ : Shape).ShapeCasts ⟨1, ![500000]⟩) (e : Fin 500000) :
    shapeCast ⟨1, ![500000]⟩ X h (ix1 e) = X (ix2 e ⟨0, Nat.one_pos⟩) :=
  shapeCast_apply X h (ix1 e) (ix2 e ⟨0, Nat.one_pos⟩) (by
    rw [Shape.rowMajor_val_two, Shape.rowMajor_val_one]
    show e.val * 1 + 0 = e.val
    omega)

/-- At the extended reals a change of float format is the identity. -/
theorem truncf_id {s : Shape} (x : FVec Ideal s .f32) (h : FTy.bits .bf16 < FTy.bits .f32) :
    (truncf .bf16 x h : s.Idx → EReal) = x := rfl

/-- Both programs gather with the same operation. -/
theorem gath_eq (x : (⟨2, ![100000, 128]⟩ : Shape).Idx → EReal) (idx : (⟨1, ![500000]⟩ : Shape).Idx → BitVec 32) :
    (Cert.KernelIdeal.Hand.gath (F := Ideal) x idx : (⟨2, ![500000, 128]⟩ : Shape).Idx → EReal) = Cert.ReferenceIdeal.Hand.gath (F := Ideal) x idx := rfl

/-- The score depends on its nine arrays only through their values. -/
theorem score_congr {act : EReal → EReal} {H H' N N' D D' : (⟨2, ![500000, 128]⟩ : Shape).Idx → EReal}
    {Mg Mg' Md Md' Wa Wa' Wb Wb' : (⟨2, ![128, 128]⟩ : Shape).Idx → EReal} {ba ba' bb bb' : (⟨1, ![128]⟩ : Shape).Idx → EReal}
    (hH : H = H') (hN : N = N') (hD : D = D') (hMg : Mg = Mg') (hMd : Md = Md') (hWa : Wa = Wa') (hWb : Wb = Wb')
    (hba : ba = ba') (hbb : bb = bb') (e : Fin 500000) :
    Cert.Spec.score act H N D Mg Md Wa Wb ba bb e = Cert.Spec.score act H' N' D' Mg' Md' Wa' Wb' ba' bb' e := by
  subst hH hN hD hMg hMd hWa hWb hba hbb
  rfl

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

theorem value_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.KernelIdeal.Gen.W5 m ρ c (Proc.devRef .tc Cert.KernelIdeal.main_v40)
      = Cert.ReferenceIdeal.Hand.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := by
  obtain ⟨h0, h1, h2, h3, h4, h5, h6, h7, h8, h9, h10, h11, h12, h13, h14, h15⟩ := hag
  rw [h0, h1, h2, h3, h4, h5, h6, h7, h8, h9, h10, h11, h12, h13, h14, h15, Cert.KernelIdeal.Hand.W5_v40]
  unfold Cert.ReferenceIdeal.Hand.result
  have e0 : (shapeCast Cert.KernelIdeal.S500000 ((Cert.KernelIdeal.Gen.dat0 (Cert.KernelIdeal.Gen.V1 m ρ) c).arrAt 9 Cert.KernelIdeal.cfg0.N) Cert.KernelIdeal.Facts₀.shapeCasts_S500000x1_S500000 : (⟨1, ![500000]⟩ : Shape).Idx → EReal)
      = Cert.ReferenceIdeal.Hand.etype (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg14)) := by
    funext i
    obtain ⟨e, rfl⟩ : ∃ e : Fin 500000, i = ix1 e := ⟨i 0, eq_ix1 i⟩
    rw [flat_apply, Cert.KernelIdeal.Hand.arr0, Cert.ReferenceIdeal.Hand.etype_apply, Cert.Spec.score_act_eq]
    refine (score_congr (Cert.KernelIdeal.Hand.W1_v14 m ρ c) (Cert.KernelIdeal.Hand.W1_arg12 m ρ c) (Cert.KernelIdeal.Hand.W1_v21 m ρ c) (Cert.KernelIdeal.Hand.W1_v4 m ρ c)
      (Cert.KernelIdeal.Hand.W1_v6 m ρ c) (Cert.KernelIdeal.Hand.W1_v1 m ρ c) (Cert.KernelIdeal.Hand.W1_v3 m ρ c) (Cert.KernelIdeal.Hand.W1_arg9 m ρ c) (Cert.KernelIdeal.Hand.W1_arg11 m ρ c) e).trans ?_
    rfl
  have e1 : (shapeCast Cert.KernelIdeal.S500000 ((Cert.KernelIdeal.Gen.dat1 (Cert.KernelIdeal.Gen.V3 m ρ) c).arrAt 9 Cert.KernelIdeal.cfg1.N) Cert.KernelIdeal.Facts₀.shapeCasts_S500000x1_S500000 : (⟨1, ![500000]⟩ : Shape).Idx → EReal)
      = Cert.ReferenceIdeal.Hand.etype (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) := by
    funext i
    obtain ⟨e, rfl⟩ : ∃ e : Fin 500000, i = ix1 e := ⟨i 0, eq_ix1 i⟩
    rw [flat_apply, Cert.KernelIdeal.Hand.arr1, Cert.ReferenceIdeal.Hand.etype_apply, Cert.Spec.score_act_eq]
    refine (score_congr (Cert.KernelIdeal.Hand.W3_v30 m ρ c) (Cert.KernelIdeal.Hand.W3_arg13 m ρ c) (Cert.KernelIdeal.Hand.W3_v37 m ρ c) (Cert.KernelIdeal.Hand.W3_v5 m ρ c)
      (Cert.KernelIdeal.Hand.W3_v7 m ρ c) (Cert.KernelIdeal.Hand.W3_v1 m ρ c) (Cert.KernelIdeal.Hand.W3_v3 m ρ c) (Cert.KernelIdeal.Hand.W3_arg9 m ρ c) (Cert.KernelIdeal.Hand.W3_arg11 m ρ c) e).trans ?_
    rfl
  rw [e0, e1]

end Cert.Bridge

end
-- ==== Proof.lean ====
/-
  The certificate of the edge-scoring kernel against its reference.

  Each edge type scores its 500000 edges: the edge's generator row, pushed through the relation matrix and perturbed by the
  edge's noise row, goes through two layers (a product with a transposed weight, a bias, a leaky rectifier), and the result's
  inner product with the edge's discriminator row pushed through the discriminator's relation matrix is the score.  The kernel
  gathers the rows on the host and computes 4000 edges per grid point in two launches; the reference computes whole arrays on
  the host.  Over the extended reals the two are one function of the arguments: a change of float format is the identity, a
  product into a zero accumulator and a host product are the same sum, the lane sum and the host sum are the same sum, and the
  kernel's strict rectifier test differs from the reference's weak one only at zero, where both branches are zero.

  The frames of the two kernel programs are the generated ones; the reference's frame is its run with the result dropped; the
  idealization rewrote nothing, so there is nothing to preserve.
-/
import proofs.«120556_j4629974745849_1_alg».proof.Defs
import proofs.«120556_j4629974745849_1_alg».proof.Proof.Gen.Kernel
import proofs.«120556_j4629974745849_1_alg».proof.Proof.Gen.Kernel.Skeleton
import proofs.«120556_j4629974745849_1_alg».proof.Proof.Gen.Kernel.Launch
import proofs.«120556_j4629974745849_1_alg».proof.Proof.Gen.Kernel.Points
import proofs.«120556_j4629974745849_1_alg».proof.Proof.Gen.Kernel.Frame
import proofs.«120556_j4629974745849_1_alg».proof.Proof.Gen.KernelIdeal
import proofs.«120556_j4629974745849_1_alg».proof.Proof.Gen.KernelIdeal.Skeleton
import proofs.«120556_j4629974745849_1_alg».proof.Proof.Gen.KernelIdeal.Launch
import proofs.«120556_j4629974745849_1_alg».proof.Proof.Gen.KernelIdeal.Points
import proofs.«120556_j4629974745849_1_alg».proof.Proof.Gen.KernelIdeal.Frame
import proofs.«120556_j4629974745849_1_alg».proof.Proof.Gen.ReferenceIdeal
import proofs.«120556_j4629974745849_1_alg».proof.Proof.Gen.Pre_finite_inputs
import proofs.«120556_j4629974745849_1_alg».proof.Proof.RefRun
import proofs.«120556_j4629974745849_1_alg».proof.Proof.KernelRun
import proofs.«120556_j4629974745849_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- From memories agreeing on the arguments both programs run, leave the arguments as they were, and end with the same
    result: the kernel's at the last host stretch's contents, the reference's at its result term, which are one array. -/
theorem algebraic : Cert.algebraic_KernelIdeal_ReferenceIdeal := by
  intro m ρ m' ρ' _ hagree
  refine ⟨fun c => Cert.KernelIdeal.Gen.W5 m ρ c (Proc.devRef .tc Cert.KernelIdeal.main_v40),
    Cert.KernelIdeal.Hand.run_valued (F := Ideal) m ρ, ?_⟩
  refine (θ_run Cert.ReferenceIdeal.defs _ _).mono (fun _ h c => ⟨(h c).1.trans ?_, (h c).2⟩)
    (Cert.ReferenceIdeal.Hand.run (F := Ideal) m' ρ')
  exact (Cert.Bridge.value_eq m ρ m' c (hagree c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
